-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S129x256 : Shape := ⟨2, ![129, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S129x256 : S_.BroadcastsInDim S129x256 (![] : Fin 0 → Fin S129x256.rank)
  reducesTo_S129x256_S_d0_1 : S129x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_

variable [Facts]

def fn_part3 {F : FTy → Type} [FloatOps F] (main_arg1 : IVec S2x800000 32) (main_v48 : IVec S_ 1) (main_v50 : IVec S2x800000 1) : IVec S_ 1 :=
  let main_c_19 : IVec S_ 1 := constantI S_ 1 1#1
  let main_v51 : IVec S_ 1 := (fun x v => Host.reduce IntOp.andi x v reducesTo_S2x800000_S_d0_1 h_S_) main_v50 main_c_19
  let main_v52 : IVec S_ 1 := andi main_v48 main_v51
  let main_c_20 : IVec S_ 32 := constantI S_ 32 50000#32
  let main_v53 : IVec S2x800000 32 := broadcastInDim S2x800000 ![] bcast_S_S2x800000 main_c_20
  let main_v54 : IVec S2x800000 1 := cmpi .slt main_arg1 main_v53
  let main_c_21 : IVec S_ 1 := constantI S_ 1 1#1
  let main_v55 : IVec S_ 1 := (fun x v => Host.reduce IntOp.andi x v reducesTo_S2x800000_S_d0_1 h_S_) main_v54 main_c_21
  let main_v56 : IVec S_ 1 := andi main_v52 main_v55
  main_v56

def fn_part2 {F : FTy → Type} [FloatOps F] (main_arg1 : IVec S2x800000 32) (main_arg8 : FVec F S256 .f32) (main_arg9 : FVec F S256x1 .f32) (main_arg10 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_c_18 : IVec S_ 32 := constantI S_ 32 0#32
  let main_v49 : IVec S2x800000 32 := broadcastInDim S2x800000 ![] bcast_S_S2x800000 main_c_18
  let main_v50 : IVec S2x800000 1 := cmpi .sge main_arg1 main_v49
  fn_part3 (F := F) main_arg1 main_v48 main_v50

def fn_part1 {F : FTy → Type} [FloatOps F] (main_arg1 : IVec S2x800000 32) (main_arg5 : FVec F S256x128 .f32) (main_arg6 : FVec F S128 .f32) (main_arg7 : FVec F S256x256 .f32) (main_arg8 : FVec F S256 .f32) (main_arg9 : FVec F S256x1 .f32) (main_arg10 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg5
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x800000 32) (main_arg2 : FVec F S800000x1 .f32) (main_arg3 : FVec F S129x256 .f32) (main_arg4 : FVec F S256 .f32) (main_arg5 : FVec F S256x128 .f32) (main_arg6 : FVec F S128 .f32) (main_arg7 : FVec F S256x256 .f32) (main_arg8 : FVec F S256 .f32) (main_arg9 : FVec F S256x1 .f32) (main_arg10 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S129x256 .f32 := Host.absf main_arg3
  let main_cst_2 : FVec F S_ .f32 := constant S_ .f32 0x7F800000#32
  let main_v10 : FVec F S129x256 .f32 := broadcastInDim S129x256 ![] bcast_S_S129x256 main_cst_2
  let main_v11 : IVec S129x256 1 := cmpf .olt main_v9 main_v10
  let main_c_3 : IVec S_ 1 := constantI S_ 1 1#1
  let main_v12 : IVec S_ 1 := (fun x v => Host.reduce IntOp.andi x v reducesTo_S129x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S129x256 : Shape := ⟨2, ![129, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S1x1 : Shape := ⟨2, ![1, 1]⟩
abbrev S800000x128 : Shape := ⟨2, ![800000, 128]⟩
abbrev S1x256 : Shape := ⟨2, ![1, 256]⟩
abbrev S8000x128 : Shape := ⟨2, ![8000, 128]⟩
abbrev S8000x1 : Shape := ⟨2, ![8000, 1]⟩
abbrev S128x256 : Shape := ⟨2, ![128, 256]⟩
abbrev S8000x256 : Shape := ⟨2, ![8000, 256]⟩
abbrev S800000x129 : Shape := ⟨2, ![800000, 129]⟩
abbrev S50000x129 : Shape := ⟨2, ![50000, 129]⟩
abbrev S50000 : Shape := ⟨1, ![50000]⟩
abbrev S50000x1 : Shape := ⟨2, ![50000, 1]⟩
abbrev S1x128 : Shape := ⟨2, ![1, 128]⟩
abbrev S5000x129 : Shape := ⟨2, ![5000, 129]⟩
abbrev S5000x128 : Shape := ⟨2, ![5000, 128]⟩
abbrev S5000x256 : Shape := ⟨2, ![5000, 256]⟩

abbrev nBuf : Space → Nat
  | .hbm => 93
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S129x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S1, .i32⟩
  | .hbm, ⟨24, _⟩ => ⟨S_, .i32⟩
  | .hbm, ⟨25, _⟩ => ⟨S800000x1, .i32⟩
  | .hbm, ⟨26, _⟩ => ⟨S800000x1, .i1⟩
  | .hbm, ⟨27, _⟩ => ⟨S1x1, .i32⟩
  | .hbm, ⟨28, _⟩ => ⟨S800000x1, .i32⟩
  | .hbm, ⟨29, _⟩ => ⟨S800000x1, .i1⟩
  | .hbm, ⟨30, _⟩ => ⟨S800000x1, .i1⟩
  | .hbm, ⟨31, _⟩ => ⟨S_, .i1⟩
  | .hbm, ⟨32, _⟩ => ⟨S800000, .i1⟩
  | .hbm, ⟨33, _⟩ => ⟨S800000x128, .f32⟩
  | .hbm, ⟨34, _⟩ => ⟨S800000x128, .i1⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S1, .i32⟩
  | .hbm, ⟨47, _⟩ => ⟨S_, .i32⟩
  | .hbm, ⟨48, _⟩ => ⟨S800000x1, .i32⟩
  | .hbm, ⟨49, _⟩ => ⟨S800000x1, .i1⟩
  | .hbm, ⟨50, _⟩ => ⟨S1x1, .i32⟩
  | .hbm, ⟨51, _⟩ => ⟨S800000x1, .i32⟩
  | .hbm, ⟨52, _⟩ => ⟨S800000x1, .i1⟩
  | .hbm, ⟨53, _⟩ => ⟨S800000x1, .i1⟩
  | .hbm, ⟨54, _⟩ => ⟨S_, .i1⟩
  | .hbm, ⟨55, _⟩ => ⟨S800000, .i1⟩
  | .hbm, ⟨56, _⟩ => ⟨S800000x128, .f32⟩
  | .hbm, ⟨57, _⟩ => ⟨S800000x128, .i1⟩
  | .hbm, ⟨58, _⟩ => ⟨S_, .f32⟩
  | .hbm, ⟨59, _⟩ => ⟨S800000x128, .f32⟩
  | .hbm, ⟨60, _⟩ => ⟨S800000x128, .f32⟩
  | .hbm, ⟨61, _⟩ => ⟨S1x256, .f32⟩
  | .hbm, ⟨62, _⟩ => ⟨S1x1, .f32⟩
  | .hbm, ⟨63, _⟩ => ⟨S800000x1, .f32⟩
  | .hbm, ⟨64, _⟩ => ⟨S800000x129, .f32⟩
  | .hbm, ⟨65, _⟩ => ⟨S_, .f32⟩
  | .hbm, ⟨66, _⟩ => ⟨S50000x129, .f32⟩
  | .hbm, ⟨67, _⟩ => ⟨S800000x1, .i32⟩
  | .hbm, ⟨68, _⟩ => ⟨S50000x129, .f32⟩
  | .hbm, ⟨69, _⟩ => ⟨S_, .f32⟩
  | .hbm, ⟨70, _⟩ => ⟨S800000, .f32⟩
  | .hbm, ⟨71, _⟩ => ⟨S_, .f32⟩
  | .hbm, ⟨72, _⟩ => ⟨S50000, .f32⟩
  | .hbm, ⟨73, _⟩ => ⟨S800000x1, .i32⟩
  | .hbm, ⟨74, _⟩ => ⟨S50000, .f32⟩
  | .hbm, ⟨75, _⟩ => ⟨S50000x1, .f32⟩
  | .hbm, ⟨76, _⟩ => ⟨S_, .f32⟩
  | .hbm, ⟨77, _⟩ => ⟨S50000x1, .f32⟩
  | .hbm, ⟨78, _⟩ => ⟨S50000x1, .i1⟩
  | .hbm, ⟨79, _⟩ => ⟨S50000x1, .f32⟩
  | .hbm, ⟨80, _⟩ => ⟨S_, .f32⟩
  | .hbm, ⟨81, _⟩ => ⟨S50000x1, .f32⟩
  | .hbm, ⟨82, _⟩ => ⟨S50000x1, .f32⟩
  | .hbm, ⟨83, _⟩ => ⟨S50000x129, .f32⟩
  | .hbm, ⟨84, _⟩ => ⟨S50000x129, .f32⟩
  | .hbm, ⟨85, _⟩ => ⟨S_, .f32⟩
  | .hbm, ⟨86, _⟩ => ⟨S_, .f32⟩
  | .hbm, ⟨87, _⟩ => ⟨S50000x129, .i1⟩
  | .hbm, ⟨88, _⟩ => ⟨S50000x129, .f32⟩
  | .hbm, ⟨89, _⟩ => ⟨S50000x129, .f32⟩
  | .hbm, ⟨90, _⟩ => ⟨S1x256, .f32⟩
  | .hbm, ⟨91, _⟩ => ⟨S1x128, .f32⟩
  | .hbm, ⟨92, _⟩ => ⟨S50000x128, .f32⟩
  | .local _ .vmem, ⟨0, _⟩ => ⟨S8000x128, .f32⟩
  | .local _ .vmem, ⟨1, _⟩ => ⟨S8000x128, .f32⟩
  | .local _ .vmem, ⟨2, _⟩ => ⟨S8000x128, .f32⟩
  | .local _ .vmem, ⟨3, _⟩ => ⟨S8000x128, .f32⟩
  | .local _ .vmem, ⟨4, _⟩ => ⟨S256x256, .f32⟩
  | .local _ .vmem, ⟨5, _⟩ => ⟨S1x256, .f32⟩
  | .local _ .vmem, ⟨6, _⟩ => ⟨S256x1, .f32⟩
  | .local _ .vmem, ⟨7, _⟩ => ⟨S1x1, .f32⟩
  | .local _ .vmem, ⟨8, _⟩ => ⟨S8000x1, .f32⟩
  | .local _ .vmem, ⟨9, _⟩ => ⟨S8000x1, .f32⟩
  | .local _ .vmem, ⟨10, _⟩ => ⟨S5000x129, .f32⟩
  | .local _ .vmem, ⟨11, _⟩ => ⟨S5000x129, .f32⟩
  | .local _ .vmem, ⟨12, _⟩ => ⟨S129x256, .f32⟩
  | .local _ .vmem, ⟨13, _⟩ => ⟨S1x256, .f32⟩
  | .local _ .vmem, ⟨14, _⟩ => ⟨S256x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_cst : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_cst_0 : Ref sig .tc := ⟨.hbm, 69, rfl⟩
abbrev main_v13 : Ref sig .tc := ⟨.hbm, 70, rfl⟩
abbrev main_cst_1 : Ref sig .tc := ⟨.hbm, 71, rfl⟩
abbrev main_v14 : Ref sig .tc := ⟨.hbm, 72, rfl⟩
abbrev main_v15 : Ref sig .tc := ⟨.hbm, 73, rfl⟩
abbrev main_v16 : Ref sig .tc := ⟨.hbm, 74, rfl⟩
abbrev main_v17 : Ref sig .tc := ⟨.hbm, 75, rfl⟩
abbrev main_cst_2 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_cst_3 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_4 : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x129 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S129x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S256_S1x256 : S256.ShapeCasts S1x256
  shapeCasts_S1_S1x1 : S1.ShapeCasts S1x1
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  slices_S256x256_o0_0_S128x256 : S256x256.Slices ![0, 0] S128x256
  slices_S256x256_o128_0_S128x256 : S256x256.Slices ![128, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8000x256 : S1x256.Broadcasts S8000x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8000x1 : S1x1.Broadcasts S8000x1
  inb_S8000x1_S8000x1_0_0 : ∀ a, (![0, 0] : Fin 2 → Nat) a + S8000x1.size a ≤ S8000x1.size a
  h_S8000x1 : 0 < S8000x1.numel
  concatenates_S800000x1_S800000x128_S800000x129_d1 : Shape.Concatenates [S800000x1, S800000x128] S800000x129 1
  bcast_S_S50000x129 : S_.BroadcastsInDim S50000x129 (![] : Fin 0 → Fin S50000x129.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x129_0_1 : S50000x1.BroadcastsInDim S50000x129 (![0, 1] : Fin 2 → Fin S50000x129.rank)
  shapeCasts_S128_S1x128 : S128.ShapeCasts S1x128
  inb_S5000x129_S5000x129_0_0 : ∀ a, (![0, 0] : Fin 2 → Nat) a + S5000x129.size a ≤ S5000x129.size a
  h_S5000x129 : 0 < S5000x129.numel
  shapeCasts_S5000x129_S5000x129 : S5000x129.ShapeCasts S5000x129
  inb_S129x256_S129x256_0_0 : ∀ a, (![0, 0] : Fin 2 → Nat) a + S129x256.size a ≤ S129x256.size a
  h_S129x256 : 0 < S129x256.numel
  broadcasts_S1x256_S5000x256 : S1x256.Broadcasts S5000x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  gather_S50000x128_S800000x1_S800000x128_1_0_n_n_0_1_1128_wf : GatherDims.WF S50000x128 S800000x1 S800000x128 [1] [0] [] [0] [] 1 ![1, 128]
  dot_S8000x128_S128x256_S8000x256_1_0_0_1_n_n_wf : DotDims.WF S8000x128 S128x256 S8000x256 [1] [0] [0] [1] [] []
  dot_S8000x256_S256x1_S8000x1_1_0_0_1_n_n_wf : DotDims.WF S8000x256 S256x1 S8000x1 [1] [0] [0] [1] [] []
  scatter_S50000x129_S800000x1_S800000x129_1_0_0_1_wf : ScatterDims.WF S50000x129 S800000x1 S800000x129 [1] [0] [0] 1
  scatter_S50000_S800000x1_S800000_n_0_0_1_wf : ScatterDims.WF S50000 S800000x1 S800000 [] [0] [0] 1
  dot_S5000x129_S129x256_S5000x256_1_0_0_1_n_n_wf : DotDims.WF S5000x129 S129x256 S5000x256 [1] [0] [0] [1] [] []
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x128.size a ≤ S800000x128.size a
  hwx0_0 : ∀ i : grid0.Coords, EltTy.bits .f32 = 32 ∨ (Rect.block (s := S800000x128) S8000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .f32 = 32 ∨ (Rect.block (s := S800000x128) S8000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x1.size a ≤ S800000x1.size a
  hwx0_6 : ∀ i : grid0.Coords, EltTy.bits .f32 = 32 ∨ (Rect.block (s := S800000x1) S8000x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x129.size a ≤ S50000x129.size a
  hwx1_0 : ∀ i : grid1.Coords, EltTy.bits .f32 = 32 ∨ (Rect.block (s := S50000x129) S5000x129.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S129x256.size a ≤ S129x256.size a
  hwx1_1 : ∀ i : grid1.Coords, EltTy.bits .f32 = 32 ∨ (Rect.block (s := S129x256) S129x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x256_S8000x256_1_0_0_1_n_n : DotDims S8000x128 S128x256 S8000x256 where
  lhsContracting := [1]
  rhsContracting := [0]
  lhsNonContracting := [0]
  rhsNonContracting := [1]
  lhsBatch := []
  rhsBatch := []
  wf := dot_S8000x128_S128x256_S8000x256_1_0_0_1_n_n_wf
def dot_S8000x256_S256x1_S8000x1_1_0_0_1_n_n : DotDims S8000x256 S256x1 S8000x1 where
  lhsContracting := [1]
  rhsContracting := [0]
  lhsNonContracting := [0]
  rhsNonContracting := [1]
  lhsBatch := []
  rhsBatch := []
  wf := dot_S8000x256_S256x1_S8000x1_1_0_0_1_n_n_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x129_S129x256_S5000x256_1_0_0_1_n_n : DotDims S5000x129 S129x256 S5000x256 where
  lhsContracting := [1]
  rhsContracting := [0]
  lhsNonContracting := [0]
  rhsNonContracting := [1]
  lhsBatch := []
  rhsBatch := []
  wf := dot_S5000x129_S129x256_S5000x256_1_0_0_1_n_n_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_v4) S8000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S8000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S5000x129.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S129x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S129x256 : Shape := ⟨2, ![129, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S256x1 : Shape := ⟨2, ![256, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x128 : Shape := ⟨2, ![800000, 128]⟩
abbrev S800000x256 : Shape := ⟨2, ![800000, 256]⟩
abbrev S1x256 : Shape := ⟨2, ![1, 256]⟩
abbrev S1x1 : Shape := ⟨2, ![1, 1]⟩
abbrev S800000x129 : Shape := ⟨2, ![800000, 129]⟩
abbrev S50000x129 : Shape := ⟨2, ![50000, 129]⟩
abbrev S50000 : Shape := ⟨1, ![50000]⟩
abbrev S50000x1 : Shape := ⟨2, ![50000, 1]⟩
abbrev S50000x256 : Shape := ⟨2, ![50000, 256]⟩
abbrev S1x128 : Shape := ⟨2, ![1, 128]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x1, .f32⟩
  | .hbm, ⟨3, _⟩ => ⟨S129x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S1, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x128, .f32⟩
  | .hbm, ⟨33, _⟩ => ⟨S800000x256, .f32⟩
  | .hbm, ⟨34, _⟩ => ⟨S800000x256, .f32⟩
  | .hbm, ⟨35, _⟩ => ⟨S1x256, .f32⟩
  | .hbm, ⟨36, _⟩ => ⟨S800000x256, .f32⟩
  | .hbm, ⟨37, _⟩ => ⟨S800000x256, .f32⟩
  | .hbm, ⟨38, _⟩ => ⟨S_, .f32⟩
  | .hbm, ⟨39, _⟩ => ⟨S800000x256, .f32⟩
  | .hbm, ⟨40, _⟩ => ⟨S800000x256, .f32⟩
  | .hbm, ⟨41, _⟩ => ⟨S800000x1, .f32⟩
  | .hbm, ⟨42, _⟩ => ⟨S1x1, .f32⟩
  | .hbm, ⟨43, _⟩ => ⟨S800000x1, .f32⟩
  | .hbm, ⟨44, _⟩ => ⟨S800000x1, .f32⟩
  | .hbm, ⟨45, _⟩ => ⟨S800000x129, .f32⟩
  | .hbm, ⟨46, _⟩ => ⟨S_, .f32⟩
  | .hbm, ⟨47, _⟩ => ⟨S50000x129, .f32⟩
  | .hbm, ⟨48, _⟩ => ⟨S800000x1, .i32⟩
  | .hbm, ⟨49, _⟩ => ⟨S50000x129, .f32⟩
  | .hbm, ⟨50, _⟩ => ⟨S_, .f32⟩
  | .hbm, ⟨51, _⟩ => ⟨S800000, .f32⟩
  | .hbm, ⟨52, _⟩ => ⟨S_, .f32⟩
  | .hbm, ⟨53, _⟩ => ⟨S50000, .f32⟩
  | .hbm, ⟨54, _⟩ => ⟨S800000x1, .i32⟩
  | .hbm, ⟨55, _⟩ => ⟨S50000, .f32⟩
  | .hbm, ⟨56, _⟩ => ⟨S50000x1, .f32⟩
  | .hbm, ⟨57, _⟩ => ⟨S_, .f32⟩
  | .hbm, ⟨58, _⟩ => ⟨S50000x1, .f32⟩
  | .hbm, ⟨59, _⟩ => ⟨S50000x1, .i1⟩
  | .hbm, ⟨60, _⟩ => ⟨S50000x1, .f32⟩
  | .hbm, ⟨61, _⟩ => ⟨S_, .f32⟩
  | .hbm, ⟨62, _⟩ => ⟨S50000x1, .f32⟩
  | .hbm, ⟨63, _⟩ => ⟨S50000x1, .f32⟩
  | .hbm, ⟨64, _⟩ => ⟨S50000x129, .f32⟩
  | .hbm, ⟨65, _⟩ => ⟨S50000x129, .f32⟩
  | .hbm, ⟨66, _⟩ => ⟨S_, .f32⟩
  | .hbm, ⟨67, _⟩ => ⟨S_, .f32⟩
  | .hbm, ⟨68, _⟩ => ⟨S50000x129, .i1⟩
  | .hbm, ⟨69, _⟩ => ⟨S50000x129, .f32⟩
  | .hbm, ⟨70, _⟩ => ⟨S50000x129, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call2_cst : Ref sig .tc := ⟨.hbm, 75, rfl⟩
abbrev main_call2_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x256 : S_.BroadcastsInDim S800000x256 (![] : Fin 0 → Fin S800000x256.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  concatenates_S800000x1_S800000x128_S800000x129_d1 : Shape.Concatenates [S800000x1, S800000x128] S800000x129 1
  bcast_S_S50000x129 : S_.BroadcastsInDim S50000x129 (![] : Fin 0 → Fin S50000x129.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x129_0_1 : S50000x1.BroadcastsInDim S50000x129 (![0, 1] : Fin 2 → Fin S50000x129.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x256_S800000x256_1_0_0_1_n_n_wf : DotDims.WF S800000x256 S256x256 S800000x256 [1] [0] [0] [1] [] []
  dot_S800000x256_S256x1_S800000x1_1_0_0_1_n_n_wf : DotDims.WF S800000x256 S256x1 S800000x1 [1] [0] [0] [1] [] []
  scatter_S50000x129_S800000x1_S800000x129_1_0_0_1_wf : ScatterDims.WF S50000x129 S800000x1 S800000x129 [1] [0] [0] 1
  scatter_S50000_S800000x1_S800000_n_0_0_1_wf : ScatterDims.WF S50000 S800000x1 S800000 [] [0] [0] 1
  dot_S50000x129_S129x256_S50000x256_1_0_0_1_n_n_wf : DotDims.WF S50000x129 S129x256 S50000x256 [1] [0] [0] [1] [] []
  dot_S50000x256_S256x128_S50000x128_1_0_0_1_n_n_wf : DotDims.WF S50000x256 S256x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x256_S800000x256_1_0_0_1_n_n : DotDims S800000x256 S256x256 S800000x256 where
  lhsContracting := [1]
  rhsContracting := [0]
  lhsNonContracting := [0]
  rhsNonContracting := [1]
  lhsBatch := []
  rhsBatch := []
  wf := dot_S800000x256_S256x256_S800000x256_1_0_0_1_n_n_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def scatter_S50000x129_S800000x1_S800000x129_1_0_0_1 : ScatterDims S50000x129 S800000x1 S800000x129 where
  updateWindowDims := [1]
  insertedWindowDims := [0]
  scatterDimsToOperandDims := [0]
  indexVectorDim := 1
  wf := scatter_S50000x129_S800000x1_S800000x129_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x129_S129x256_S50000x256_1_0_0_1_n_n : DotDims S50000x129 S129x256 S50000x256 where
  lhsContracting := [1]
  rhsContracting := [0]
  lhsNonContracting := [0]
  rhsNonContracting := [1]
  lhsBatch := []
  rhsBatch := []
  wf := dot_S50000x129_S129x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.HostK.lean ====
/-
  The idealized kernel program's host side: what the buffers hold at each region's entry, as functions of the launch
  memory.

  Before the edge decoder the program slices the two rows of the index input, gathers the rows of `z` they name (a
  gather that fills a row with a not-a-number pattern where its index, wrapped once if negative, falls outside the
  array), and re-lays the two biases as one-row matrices. Between the regions it joins the edge attribute to the
  gathered source rows, sums the joined rows and the constant one over the edges of each destination node, and divides
  (zero where a node has no edge); before the node decoder it re-lays two more biases. Each fact below reads ONE stretch
  of host operations from the contents at the stretch's start.
-/
import proofs.«428258_j44014824849613_1_alg».proof.Proof.Gen.KernelIdeal.Frame
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.ShloMosaic.StableHlo
open Idealize.SL Idealize.SL.Sem

variable {F : FTy → Type} [FloatOps F]

/-- Row `r` of the index input as a vector. -/
def rowK0 (ei : IVec S2x800000 32) : IVec S800000 32 :=
  shapeCast S800000 (extractStridedSlice S1x800000 ![0, 0] ei slices_S2x800000_S1x800000_0_0) shapeCasts_S1x800000_S800000
def rowK1 (ei : IVec S2x800000 32) : IVec S800000 32 :=
  shapeCast S800000 (extractStridedSlice S1x800000 ![1, 0] ei slices_S2x800000_S1x800000_1_0) shapeCasts_S1x800000_S800000

/-- A negative index counted from the end. -/
def wrapK (i : IVec S800000 32) : IVec S800000 32 :=
  select (cmpi .slt i (broadcastInDim S800000 ![] bcast_S_S800000 (constantI S_ 32 0#32)))
    (addi i (broadcastInDim S800000 ![] bcast_S_S800000 (constantI S_ 32 50000#32))) i

/-- Which of the wrapped indices lie inside the array. -/
def inRangeK (w : IVec S800000 32) : IVec S800000 1 :=
  Host.reduce IntOp.andi
    (andi (cmpi .sge (broadcastInDim S800000x1 ![0] bcast_S800000_S800000x1_0 w) (broadcastInDim S800000x1 ![] bcast_S_S800000x1 (constantI S_ 32 0#32)))
      (cmpi .sle (broadcastInDim S800000x1 ![0] bcast_S800000_S800000x1_0 w)
        (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The gather with fill: row `e` is row `wrap (i e)` of `z` where that lies inside the array, the fill pattern elsewhere. -/
def takeK (z : FVec F S50000x128 .f32) (i : IVec S800000 32) : FVec F S800000x128 .f32 :=
  select (broadcastInDim S800000x128 ![0] bcast_S800000_S800000x128_0 (inRangeK (wrapK i)))
    (Host.gather gather_S50000x128_S800000x1_S800000x128_1_0_n_n_0_1_1128 z (broadcastInDim S800000x1 ![0] bcast_S800000_S800000x1_0 (wrapK i)))
    (broadcastInDim S800000x128 ![] bcast_S_S800000x128 (constant S_ .f32 0x7FC00000#32))

/-- How many edges end at each node. -/
def countsK (dst : IVec S800000 32) : FVec F S50000 .f32 :=
  Host.scatterAdd scatter_S50000_S800000x1_S800000_n_0_0_1 (broadcastInDim S50000 ![] bcast_S_S50000 (constant (F := F) S_ .f32 0x00000000#32))
    (broadcastInDim S800000x1 ![0] bcast_S800000_S800000x1_0 dst) (broadcastInDim S800000 ![] bcast_S_S800000 (constant (F := F) S_ .f32 0x3F800000#32))

/-- The per-node context: the edge attribute joined to the gathered source rows, summed over the edges that end at the
    node and divided by their number (at least one); zero where no edge ends. -/
def ctxK (ea : FVec F S800000x1 .f32) (zs : FVec F S800000x128 .f32) (dst : IVec S800000 32) : FVec F S50000x129 .f32 :=
  select (broadcastInDim S50000x129 ![0, 1] bcast_S50000x1_S50000x129_0_1
      (cmpf (F := F) .ogt (broadcastInDim S50000x1 ![0] bcast_S50000_S50000x1_0 (countsK (F := F) dst))
        (broadcastInDim S50000x1 ![] bcast_S_S50000x1 (constant (F := F) S_ .f32 0x00000000#32))))
    (Host.divf
      (Host.scatterAdd scatter_S50000x129_S800000x1_S800000x129_1_0_0_1 (broadcastInDim S50000x129 ![] bcast_S_S50000x129 (constant (F := F) S_ .f32 0x00000000#32))
        (broadcastInDim S800000x1 ![0] bcast_S800000_S800000x1_0 dst)
        (concatenate S800000x129 1 [⟨S800000x1, ea⟩, ⟨S800000x128, zs⟩] concatenates_S800000x1_S800000x128_S800000x129_d1))
      (broadcastInDim S50000x129 ![0, 1] bcast_S50000x1_S50000x129_0_1
        (maximumf (broadcastInDim S50000x1 ![0] bcast_S50000_S50000x1_0 (countsK (F := F) dst))
          (broadcastInDim S50000x1 ![] bcast_S_S50000x1 (constant (F := F) S_ .f32 0x3F800000#32)))))
    (broadcastInDim S50000x129 ![] bcast_S_S50000x129 (id (constant (F := F) S_ .f32 0x00000000#32)))

variable (m : (ℓ : Loc nD τ sig) → Buf (Elt F) ℓ) (ρ : Dev nD → PrngReg)

/-! ## At the edge decoder's entry -/

set_option maxHeartbeats 4000000 in
/-- The gathered source rows. -/
theorem W4_v4 (c : Dev nD) : W4 m ρ c (Proc.devRef .tc main_v4)
    = takeK (m ((c : Thread nD τ).loc main_arg0)) (rowK0 (m ((c : Thread nD τ).loc main_arg1))) := by
  show StableHlo.after hostOps0_3 (StableHlo.after hostOps0_2 (StableHlo.after hostOps0_1 (StableHlo.after hostOps0 (W0 m ρ c)))) (Proc.devRef .tc main_v4) = _
  after_results_simp
  simp only [TRef.ofBuf, TRef.toBuf, cast_eq]
  rfl

set_option maxHeartbeats 4000000 in
/-- The gathered destination rows. -/
theorem W4_v5 (c : Dev nD) : W4 m ρ c (Proc.devRef .tc main_v5)
    = takeK (m ((c : Thread nD τ).loc main_arg0)) (rowK1 (m ((c : Thread nD τ).loc main_arg1))) := by
  show StableHlo.after hostOps0_3 (StableHlo.after hostOps0_2 (StableHlo.after hostOps0_1 (StableHlo.after hostOps0 (W0 m ρ c)))) (Proc.devRef .tc main_v5) = _
  after_results_simp
  simp only [TRef.ofBuf, TRef.toBuf, cast_eq]
  rfl

set_option maxHeartbeats 4000000 in
theorem W4_v3 (c : Dev nD) : W4 m ρ c (Proc.devRef .tc main_v3) = rowK1 (m ((c : Thread nD τ).loc main_arg1)) := by
  show StableHlo.after hostOps0_3 (StableHlo.after hostOps0_2 (StableHlo.after hostOps0_1 (StableHlo.after hostOps0 (W0 m ρ c)))) (Proc.devRef .tc main_v3) = _
  after_results_simp
  rfl

set_option maxHeartbeats 4000000 in
theorem W4_v6 (c : Dev nD) : W4 m ρ c (Proc.devRef .tc main_v6) = shapeCast S1x256 (m ((c : Thread nD τ).loc main_arg8)) shapeCasts_S256_S1x256 := by
  show StableHlo.after hostOps0_3 (StableHlo.after hostOps0_2 (StableHlo.after hostOps0_1 (StableHlo.after hostOps0 (W0 m ρ c)))) (Proc.devRef .tc main_v6) = _
  after_results_simp
  rfl

set_option maxHeartbeats 4000000 in
theorem W4_v7 (c : Dev nD) : W4 m ρ c (Proc.devRef .tc main_v7) = shapeCast S1x1 (m ((c : Thread nD τ).loc main_arg10)) shapeCasts_S1_S1x1 := by
  show StableHlo.after hostOps0_3 (StableHlo.after hostOps0_2 (StableHlo.after hostOps0_1 (StableHlo.after hostOps0 (W0 m ρ c)))) (Proc.devRef .tc main_v7) = _
  after_results_simp
  rfl

set_option maxHeartbeats 4000000 in
/-- A buffer no operation before the edge decoder writes holds its launch contents there. -/
theorem W4_arg2 (c : Dev nD) : W4 m ρ c (Proc.devRef .tc main_arg2) = m ((c : Thread nD τ).loc main_arg2) := by
  show StableHlo.after hostOps0_3 (StableHlo.after hostOps0_2 (StableHlo.after hostOps0_1 (StableHlo.after hostOps0 (W0 m ρ c)))) (Proc.devRef .tc main_arg2) = _
  after_results_simp
set_option maxHeartbeats 4000000 in
theorem W4_arg3 (c : Dev nD) : W4 m ρ c (Proc.devRef .tc main_arg3) = m ((c : Thread nD τ).loc main_arg3) := by
  show StableHlo.after hostOps0_3 (StableHlo.after hostOps0_2 (StableHlo.after hostOps0_1 (StableHlo.after hostOps0 (W0 m ρ c)))) (Proc.devRef .tc main_arg3) = _
  after_results_simp
set_option maxHeartbeats 4000000 in
theorem W4_arg4 (c : Dev nD) : W4 m ρ c (Proc.devRef .tc main_arg4) = m ((c : Thread nD τ).loc main_arg4) := by
  show StableHlo.after hostOps0_3 (StableHlo.after hostOps0_2 (StableHlo.after hostOps0_1 (StableHlo.after hostOps0 (W0 m ρ c)))) (Proc.devRef .tc main_arg4) = _
  after_results_simp
set_option maxHeartbeats 4000000 in
theorem W4_arg5 (c : Dev nD) : W4 m ρ c (Proc.devRef .tc main_arg5) = m ((c : Thread nD τ).loc main_arg5) := by
  show StableHlo.after hostOps0_3 (StableHlo.after hostOps0_2 (StableHlo.after hostOps0_1 (StableHlo.after hostOps0 (W0 m ρ c)))) (Proc.devRef .tc main_arg5) = _
  after_results_simp
set_option maxHeartbeats 4000000 in
theorem W4_arg6 (c : Dev nD) : W4 m ρ c (Proc.devRef .tc main_arg6) = m ((c : Thread nD τ).loc main_arg6) := by
  show StableHlo.after hostOps0_3 (StableHlo.after hostOps0_2 (StableHlo.after hostOps0_1 (StableHlo.after hostOps0 (W0 m ρ c)))) (Proc.devRef .tc main_arg6) = _
  after_results_simp
set_option maxHeartbeats 4000000 in
theorem W4_arg7 (c : Dev nD) : W4 m ρ c (Proc.devRef .tc main_arg7) = m ((c : Thread nD τ).loc main_arg7) := by
  show StableHlo.after hostOps0_3 (StableHlo.after hostOps0_2 (StableHlo.after hostOps0_1 (StableHlo.after hostOps0 (W0 m ρ c)))) (Proc.devRef .tc main_arg7) = _
  after_results_simp
set_option maxHeartbeats 4000000 in
theorem W4_arg9 (c : Dev nD) : W4 m ρ c (Proc.devRef .tc main_arg9) = m ((c : Thread nD τ).loc main_arg9) := by
  show StableHlo.after hostOps0_3 (StableHlo.after hostOps0_2 (StableHlo.after hostOps0_1 (StableHlo.after hostOps0 (W0 m ρ c)))) (Proc.devRef .tc main_arg9) = _
  after_results_simp

/-! ## At the edge decoder's exit: its input arrays as entered, its result what the pipeline leaves, the rest untouched -/

theorem W5_v4 (c : Dev nD) : W5 m ρ c (Proc.devRef .tc main_v4) = W4 m ρ c (Proc.devRef .tc main_v4) :=
  (W5_arr m ρ c 0).trans (((dat0 (V4 m ρ) c).arrAt_in 0 rfl cfg0.N).trans (A_eq0 (V4 m ρ) c 0))
theorem W5_v8 (c : Dev nD) : W5 m ρ c (Proc.devRef .tc main_v8) = (dat0 (V4 m ρ) c).arrAt 6 cfg0.N := W5_arr m ρ c 6
theorem W5_v3 (c : Dev nD) : W5 m ρ c (Proc.devRef .tc main_v3) = W4 m ρ c (Proc.devRef .tc main_v3) := W5_of_ne m ρ c main_v3 (by decide)
theorem W5_arg2 (c : Dev nD) : W5 m ρ c (Proc.devRef .tc main_arg2) = W4 m ρ c (Proc.devRef .tc main_arg2) := W5_of_ne m ρ c main_arg2 (by decide)
theorem W5_arg3 (c : Dev nD) : W5 m ρ c (Proc.devRef .tc main_arg3) = W4 m ρ c (Proc.devRef .tc main_arg3) := W5_of_ne m ρ c main_arg3 (by decide)
theorem W5_arg4 (c : Dev nD) : W5 m ρ c (Proc.devRef .tc main_arg4) = W4 m ρ c (Proc.devRef .tc main_arg4) := W5_of_ne m ρ c main_arg4 (by decide)
theorem W5_arg5 (c : Dev nD) : W5 m ρ c (Proc.devRef .tc main_arg5) = W4 m ρ c (Proc.devRef .tc main_arg5) := W5_of_ne m ρ c main_arg5 (by decide)
theorem W5_arg6 (c : Dev nD) : W5 m ρ c (Proc.devRef .tc main_arg6) = W4 m ρ c (Proc.devRef .tc main_arg6) := W5_of_ne m ρ c main_arg6 (by decide)

/-! ## At the node decoder's entry -/

set_option maxHeartbeats 4000000 in
/-- The context array, from the contents at the edge decoder's exit. -/
theorem W8_v25 (c : Dev nD) : W8 m ρ c (Proc.devRef .tc main_v25)
    = ctxK (W5 m ρ c (Proc.devRef .tc main_arg2)) (W5 m ρ c (Proc.devRef .tc main_v4)) (W5 m ρ c (Proc.devRef .tc main_v3)) := by
  show StableHlo.after hostOps1_2 (StableHlo.after hostOps1_1 (StableHlo.after hostOps1 (W5 m ρ c))) (Proc.devRef .tc main_v25) = _
  generalize W5 m ρ c = V5
  after_results_simp
  rfl

set_option maxHeartbeats 4000000 in
theorem W8_v26 (c : Dev nD) : W8 m ρ c (Proc.devRef .tc main_v26) = shapeCast S1x256 (W5 m ρ c (Proc.devRef .tc main_arg4)) shapeCasts_S256_S1x256 := by
  show StableHlo.after hostOps1_2 (StableHlo.after hostOps1_1 (StableHlo.after hostOps1 (W5 m ρ c))) (Proc.devRef .tc main_v26) = _
  generalize W5 m ρ c = V5
  after_results_simp
  rfl
set_option maxHeartbeats 4000000 in
theorem W8_v27 (c : Dev nD) : W8 m ρ c (Proc.devRef .tc main_v27) = shapeCast S1x128 (W5 m ρ c (Proc.devRef .tc main_arg6)) shapeCasts_S128_S1x128 := by
  show StableHlo.after hostOps1_2 (StableHlo.after hostOps1_1 (StableHlo.after hostOps1 (W5 m ρ c))) (Proc.devRef .tc main_v27) = _
  generalize W5 m ρ c = V5
  after_results_simp
  rfl
set_option maxHeartbeats 4000000 in
theorem W8_arg3 (c : Dev nD) : W8 m ρ c (Proc.devRef .tc main_arg3) = W5 m ρ c (Proc.devRef .tc main_arg3) := by
  show StableHlo.after hostOps1_2 (StableHlo.after hostOps1_1 (StableHlo.after hostOps1 (W5 m ρ c))) (Proc.devRef .tc main_arg3) = _
  generalize W5 m ρ c = V5
  after_results_simp
set_option maxHeartbeats 4000000 in
theorem W8_arg5 (c : Dev nD) : W8 m ρ c (Proc.devRef .tc main_arg5) = W5 m ρ c (Proc.devRef .tc main_arg5) := by
  show StableHlo.after hostOps1_2 (StableHlo.after hostOps1_1 (StableHlo.after hostOps1 (W5 m ρ c))) (Proc.devRef .tc main_arg5) = _
  generalize W5 m ρ c = V5
  after_results_simp
set_option maxHeartbeats 4000000 in
theorem W8_v8 (c : Dev nD) : W8 m ρ c (Proc.devRef .tc main_v8) = W5 m ρ c (Proc.devRef .tc main_v8) := by
  show StableHlo.after hostOps1_2 (StableHlo.after hostOps1_1 (StableHlo.after hostOps1 (W5 m ρ c))) (Proc.devRef .tc main_v8) = _
  generalize W5 m ρ c = V5
  after_results_simp

/-! ## The two results at the last boundary -/

/-- The edge decoder's result is not touched after its region. -/
theorem W9_v8 (c : Dev nD) : W9 m ρ c (Proc.devRef .tc main_v8) = (dat0 (V4 m ρ) c).arrAt 6 cfg0.N :=
  (W9_of_ne m ρ c main_v8 (by decide)).trans ((W8_v8 m ρ c).trans (W5_v8 m ρ c))
/-- The node decoder's result is what its pipeline leaves. -/
theorem W9_v28 (c : Dev nD) : W9 m ρ c (Proc.devRef .tc main_v28) = (dat1 (V8 m ρ) c).arrAt 5 cfg1.N := W9_arr m ρ c 5

end Cert.KernelIdeal.HostK

end
-- ==== Proof.Spec.lean ====
/-
  The two decoders, index by index, on the extended reals.

  Both outputs of the network are rows of a two-layer perceptron with a rectifier between the layers:
  entry `(p, q)` is `Σ_j max(h_j, 0) · W₂(j, q) + b₂(q)` with `h_j = Σ_k x(p, k) · W₁(k, j) + b₁(j)`.
  For an edge the first layer's input is the source row followed by the destination row, so its hidden
  sum is a sum over 256 columns; the kernel forms it as two sums over 128 columns, against the top and
  the bottom half of `W₁`. The two are the same sum split at column 128, which needs only that addition
  on the extended reals is commutative and associative: no finiteness enters.
-/
import Idealize.ShloMosaic.PureOps.Ideal
import Idealize.ShloMosaic.Lib.ValueIdx

noncomputable section

namespace Cert.GNN

open Idealize.ShloMosaic Idealize.ShloMosaic.ValueIdx

/-- Column `k` of the top half of a 256-row matrix. -/
abbrev topRow (k : Fin 128) : Fin 256 := ⟨k.val, by omega⟩
/-- Column `k` of the bottom half of a 256-row matrix. -/
abbrev botRow (k : Fin 128) : Fin 256 := ⟨128 + k.val, by omega⟩

/-- The edge decoder at edge `e`: hidden unit `j` is the source row against the top half of `W₁` plus the
    destination row against its bottom half plus the bias; the output is the rectified hidden layer against the one
    column of `W₂`, plus the output bias. -/
def edgeAt {M : ℕ} (zs zd : FVec Ideal ⟨2, ![M, 128]⟩ .f32) (W1 : FVec Ideal ⟨2, ![256, 256]⟩ .f32) (b1 : Fin 256 → EReal)
    (W2 : FVec Ideal ⟨2, ![256, 1]⟩ .f32) (b2 : EReal) (e : Fin M) : EReal :=
  (∑ j : Fin 256, max (((∑ k : Fin 128, zs (ix2 e k) * W1 (ix2 (topRow k) j))
      + (∑ k : Fin 128, zd (ix2 e k) * W1 (ix2 (botRow k) j))) + b1 j) 0 * W2 (ix2 j 0)) + b2

/-- The node decoder at node `n`, output column `q`. -/
def nodeAt {M : ℕ} (x : FVec Ideal ⟨2, ![M, 129]⟩ .f32) (W1 : FVec Ideal ⟨2, ![129, 256]⟩ .f32) (b1 : Fin 256 → EReal)
    (W2 : FVec Ideal ⟨2, ![256, 128]⟩ .f32) (b2 : Fin 128 → EReal) (n : Fin M) (q : Fin 128) : EReal :=
  (∑ j : Fin 256, max ((∑ k : Fin 129, x (ix2 n k) * W1 (ix2 k j)) + b1 j) 0 * W2 (ix2 j q)) + b2 q

/-- A sum over 256 columns is the sum over the first 128 plus the sum over the last 128. -/
theorem sum_split_256 (f : Fin 256 → EReal) :
    (∑ k : Fin 256, f k) = (∑ k : Fin 128, f (topRow k)) + (∑ k : Fin 128, f (botRow k)) := by
  have h := Fin.sum_univ_add (M := EReal) (a := 128) (b := 128) f
  exact h

end Cert.GNN

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Body.lean ====
/-
  The two kernel bodies' stored values, read at an entry, on the extended reals.

  Each body is a two-layer perceptron: a product into the zero accumulator, a bias row added to every row, a
  rectifier, a second product into the zero accumulator and a second bias. At the ideal values a change of float
  format is the identity, a shape cast to the same shape is the identity, a product into the zero accumulator is the
  plain sum over the contracted column, a slice of the weight's rows at offset 0 or 128 reads its top or bottom half,
  a one-row array broadcast over the rows reads its one row, and the rectifier is `max · 0`.
-/
import proofs.«428258_j44014824849613_1_alg».proof.Proof.Gen.KernelIdeal.Skeleton
import proofs.«428258_j44014824849613_1_alg».proof.Proof.LibDot
import proofs.«428258_j44014824849613_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.GNN

open Idealize.ShloMosaic Idealize.ShloMosaic.ValueIdx Cert.KernelIdeal

/-- The edge body's stored column at row `r`: the two first-layer products are the source row against the top half
    of the first weight and the destination row against its bottom half. -/
theorem edge_payload_apply (v0 v3 : Vec Ideal S8000x128 .f32) (v6 : Vec Ideal S256x256 .f32) (v13 : Vec Ideal S1x256 .f32)
    (v20 : Vec Ideal S256x1 .f32) (v23 : Vec Ideal S1x1 .f32) (r : Fin 8000) :
    Cert.KernelIdeal.Gen.k0_pay1 (F := Ideal) v0 v3 v6 v13 v20 v23 (ix2 r 0)
      = edgeAt v0 v3 v6 (fun j => v13 (ix2 0 j)) v20 (v23 (ix2 0 0)) r := by
  unfold Cert.KernelIdeal.Gen.k0_pay1
  -- the output bias is added last
  refine (addf_apply _ _ _).trans ?_
  unfold edgeAt
  congr 1
  · -- the second product, into the zero accumulator: the sum over the hidden units
    refine (matmul_plain_zero_apply none _ _ r 0).trans ?_
    refine Finset.sum_congr rfl fun j _ => ?_
    congr 1
    -- hidden unit `j`: the format change is the identity, the rectifier is `max · 0`
    refine (truncf_apply (φ := .f32) (ψ := .bf16) _ Gen.bitsLt_bf16_f32 _).trans ?_
    refine (maximumf_apply _ _ _).trans ?_
    congr 1
    · refine (addf_apply _ _ _).trans ?_
      congr 1
      · -- the two first-layer products, each into the zero accumulator
        refine (addf_apply _ _ _).trans ?_
        congr 1
        · -- the source row against the weight's rows 0 … 127
          refine (matmul_plain_zero_apply none _ _ r j).trans ?_
          refine Finset.sum_congr rfl fun k _ => ?_
          show shapeCast S8000x128 v0 _ (ix2 r k) * extractStridedSlice S128x256 _ _ _ (ix2 k j) = _
          rw [shapeCast_self]
          congr 1
          refine (extractStridedSlice_apply _ _ _ (ix2 k j) (ix2 (topRow k) j) fun a => ?_).trans rfl
          match a with
          | ⟨0, _⟩ => exact (Nat.zero_add _).symm
          | ⟨1, _⟩ => exact (Nat.zero_add _).symm
        · -- the destination row against the weight's rows 128 … 255
          refine (matmul_plain_zero_apply none _ _ r j).trans ?_
          refine Finset.sum_congr rfl fun k _ => ?_
          show shapeCast S8000x128 v3 _ (ix2 r k) * extractStridedSlice S128x256 _ _ _ (ix2 k j) = _
          rw [shapeCast_self]
          congr 1
          refine (extractStridedSlice_apply _ _ _ (ix2 k j) (ix2 (botRow k) j) fun a => ?_).trans rfl
          match a with
          | ⟨0, _⟩ => exact rfl
          | ⟨1, _⟩ => exact (Nat.zero_add _).symm
      · -- the hidden bias: one row read at column `j`
        refine (broadcastTo_1b_ab_apply _ _ r j).trans ?_
        rw [shapeCast_self]
    · -- the splat of the zero word
      exact Ideal.ofBits_zero_f32
  · -- the output bias: a one-entry array read at its entry
    refine (broadcastTo_1b_ab_apply _ _ r 0).trans ?_
    rw [shapeCast_self]

/-- The node body's stored block at entry `(r, q)`. -/
theorem node_payload_apply (v0 : Vec Ideal S5000x129 .f32) (v3 : Vec Ideal S129x256 .f32) (v6 : Vec Ideal S1x256 .f32)
    (v13 : Vec Ideal S256x128 .f32) (v16 : Vec Ideal S1x128 .f32) (r : Fin 5000) (q : Fin 128) :
    Cert.KernelIdeal.Gen.k1_pay1 (F := Ideal) v0 v3 v6 v13 v16 (ix2 r q)
      = nodeAt v0 v3 (fun j => v6 (ix2 0 j)) v13 (fun q => v16 (ix2 0 q)) r q := by
  unfold Cert.KernelIdeal.Gen.k1_pay1
  -- the output bias is added last
  refine (addf_apply _ _ _).trans ?_
  unfold nodeAt
  congr 1
  · -- the second product, into the zero accumulator: the sum over the hidden units
    refine (matmul_plain_zero_apply none _ _ r q).trans ?_
    refine Finset.sum_congr rfl fun j _ => ?_
    congr 1
    -- hidden unit `j`: the format change is the identity, the rectifier is `max · 0`
    refine (truncf_apply (φ := .f32) (ψ := .bf16) _ Gen.bitsLt_bf16_f32 _).trans ?_
    refine (maximumf_apply _ _ _).trans ?_
    congr 1
    · refine (addf_apply _ _ _).trans ?_
      congr 1
      · -- the first product, into the zero accumulator
        refine (matmul_plain_zero_apply none _ _ r j).trans ?_
        refine Finset.sum_congr rfl fun k _ => ?_
        show shapeCast S5000x129 v0 _ (ix2 r k) * v3 (ix2 k j) = _
        rw [shapeCast_self]
      · -- the hidden bias: one row read at column `j`
        refine (broadcastTo_1b_ab_apply _ _ r j).trans ?_
        rw [shapeCast_self]
    · -- the splat of the zero word
      exact Ideal.ofBits_zero_f32
  · -- the output bias: one row read at column `q`
    refine (broadcastTo_1b_ab_apply _ _ r q).trans ?_
    rw [shapeCast_self]

end Cert.GNN

end
-- ==== Proof.Arrays.lean ====
/-
  From blocks to arrays: what each decoder's output array holds after its region has run.

  Each region tiles its output by row blocks: point `t` of the edge decoder writes rows `8000·t … 8000·t + 7999` of
  the 800000 × 1 result from the same rows of the two gathered arrays and the whole weight arrays; point `t` of the
  node decoder writes rows `5000·t … 5000·t + 4999` of the 50000 × 128 result from the same rows of the context array.
  A row of either decoder depends only on the same row of its row-blocked input, so every block written back is a
  block of ONE whole-array function (`edgeG`, `nodeG`), and the blocks cover the array: the array ends at that function.
-/
import proofs.«428258_j44014824849613_1_alg».proof.Proof.Gen.KernelIdeal.Frame
import proofs.«428258_j44014824849613_1_alg».proof.Proof.Spec
import proofs.«428258_j44014824849613_1_alg».proof.Proof.Body
import Idealize.ShloMosaic.Lib.Pipeline.Value
import Idealize.ShloMosaic.Lib.ValueIdx

set_option maxRecDepth 16384

noncomputable section

namespace Cert.KernelIdeal.Arrays

open Cert.KernelIdeal Cert.KernelIdeal.Gen Cert.GNN
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The node decoder's region (pipeline 1) -/

/-- The printed index maps over the ten points: the context and the result move down by one block of rows per
    point; every weight window stays at its one block. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem lt1 (t : Fin cfg1.N) : t.val < 10 := lt_of_lt_of_eq t.isLt (show cfg1.N = 10 from N_1)

/-- Row `r` of point `t`'s context block is row `5000·t + r` of the context array. -/
theorem blk1_0 (c : Dev nD) (t : Fin cfg1.N) (r : Fin 5000) (k : Fin 129) :
    iblk1 V c 0 t (ix2 r k) = V c main_v25 (ix2 (⟨t.val * 5000 + r.val, by have := lt1 t; omega⟩ : Fin 50000) k) := by
  obtain ⟨e0, e1, -⟩ := idx1 t
  show V c main_v25 (((cfg1.win 0).blk t).view.emb (ix2 r k)) = _
  refine congrArg _ (funext fun a => Fin.ext ?_)
  match a with
  | ⟨0, _⟩ => show win1_0.index t (0 : Fin 2) * 5000 + 1 * r.val = t.val * 5000 + r.val; omega
  | ⟨1, _⟩ => show win1_0.index t (1 : Fin 2) * 129 + 1 * k.val = k.val; omega

/-- The weight windows' one block is the whole array. -/
theorem blk1_1 (c : Dev nD) (t : Fin cfg1.N) (k : Fin 129) (j : Fin 256) :
    iblk1 V c 1 t (ix2 k j) = V c main_arg3 (ix2 k j) := by
  obtain ⟨-, -, e0, e1, -⟩ := idx1 t
  show V c main_arg3 (((cfg1.win 1).blk t).view.emb (ix2 k j)) = _
  refine congrArg _ (funext fun a => Fin.ext ?_)
  match a with
  | ⟨0, _⟩ => show win1_1.index t (0 : Fin 2) * 129 + 1 * k.val = k.val; omega
  | ⟨1, _⟩ => show win1_1.index t (1 : Fin 2) * 256 + 1 * j.val = j.val; omega
theorem blk1_2 (c : Dev nD) (t : Fin cfg1.N) (j : Fin 256) :
    iblk1 V c 2 t (ix2 0 j) = V c main_v26 (ix2 0 j) := by
  obtain ⟨-, -, -, -, e0, e1, -⟩ := idx1 t
  show V c main_v26 (((cfg1.win 2).blk t).view.emb (ix2 0 j)) = _
  refine congrArg _ (funext fun a => Fin.ext ?_)
  match a with
  | ⟨0, _⟩ => show win1_2.index t (0 : Fin 2) * 1 + 1 * 0 = 0; omega
  | ⟨1, _⟩ => show win1_2.index t (1 : Fin 2) * 256 + 1 * j.val = j.val; omega
theorem blk1_3 (c : Dev nD) (t : Fin cfg1.N) (j : Fin 256) (q : Fin 128) :
    iblk1 V c 3 t (ix2 j q) = V c main_arg5 (ix2 j q) := by
  obtain ⟨-, -, -, -, -, -, e0, e1, -⟩ := idx1 t
  show V c main_arg5 (((cfg1.win 3).blk t).view.emb (ix2 j q)) = _
  refine congrArg _ (funext fun a => Fin.ext ?_)
  match a with
  | ⟨0, _⟩ => show win1_3.index t (0 : Fin 2) * 256 + 1 * j.val = j.val; omega
  | ⟨1, _⟩ => show win1_3.index t (1 : Fin 2) * 128 + 1 * q.val = q.val; omega
theorem blk1_4 (c : Dev nD) (t : Fin cfg1.N) (q : Fin 128) :
    iblk1 V c 4 t (ix2 0 q) = V c main_v27 (ix2 0 q) := by
  obtain ⟨-, -, -, -, -, -, -, -, e0, e1, -⟩ := idx1 t
  show V c main_v27 (((cfg1.win 4).blk t).view.emb (ix2 0 q)) = _
  refine congrArg _ (funext fun a => Fin.ext ?_)
  match a with
  | ⟨0, _⟩ => show win1_4.index t (0 : Fin 2) * 1 + 1 * 0 = 0; omega
  | ⟨1, _⟩ => show win1_4.index t (1 : Fin 2) * 128 + 1 * q.val = q.val; omega

/-- An index of the result is in point `t`'s block iff each coordinate is in the block's range on its axis. -/
theorem mem_blk1_5 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v28).slice (win1_5.rect t)).set ↔ _
  rw [View.set_slice_whole, Rect.mem_set_unit]
  exact Iff.rfl

/-- Every row of the result lies in the block of the point `row / 5000`, and every point writes back. -/
theorem cover1_5 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  let t : Fin cfg1.N := ⟨(i 0).val / 5000, lt_of_lt_of_eq (by omega : (i 0).val / 5000 < 10) (show (10 : ℕ) = cfg1.N from N_1.symm)⟩
  obtain ⟨-, -, -, -, -, -, -, -, -, -, e0, e1⟩ := idx1 t
  have ht : t.val = (i 0).val / 5000 := rfl
  refine ⟨t, flush1_5 t, ?_⟩
  rw [mem_blk1_5]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- The node decoder's result as one function of the arrays its region is entered with. -/
def nodeG (c : Dev nD) : S50000x128.Idx → EReal := fun i =>
  nodeAt (M := 50000) (V c main_v25) (V c main_arg3) (fun j => V c main_v26 (ix2 0 j)) (V c main_arg5)
    (fun q => V c main_v27 (ix2 0 q)) ⟨(i 0).val, (i 0).isLt⟩ ⟨(i 1).val, (i 1).isLt⟩

/-- What point `t` writes back is block `t` of `nodeG`. -/
theorem node_flushed (c : Dev nD) (t : Fin cfg1.N) :
    (dat1 V c).flushed 5 t = ((cfg1.win 5).blk t).view.read (Elt Ideal) (nodeG V c) := by
  show (cfg1.win 5).cut (grid1.coords t) ((dat1 V c).after 5 t) = _
  rw [after1_5]
  unfold out1_5
  rw [View.canon_unit_zero hz]
  simp only [View.ld_unit_zero (S := S5000x129) hz, View.ld_unit_zero (S := S129x256) hz, View.ld_unit_zero (S := S1x256) hz,
    View.ld_unit_zero (S := S256x128) hz, View.ld_unit_zero (S := S1x128) hz]
  funext y
  obtain ⟨r, q, rfl⟩ : ∃ (r : Fin 5000) (q : Fin 128), y = ix2 r q := ⟨y 0, y 1, eq_ix2 y⟩
  refine (node_payload_apply _ _ _ _ _ r q).trans ?_
  obtain ⟨-, -, -, -, -, -, -, -, -, -, e0, e1⟩ := idx1 t
  show _ = nodeG V c (((cfg1.win 5).blk t).view.emb (ix2 r q))
  have hemb : ((cfg1.win 5).blk t).view.emb (ix2 r q) = ix2 (⟨t.val * 5000 + r.val, by have := lt1 t; omega⟩ : Fin 50000) q := by
    funext a; apply Fin.ext
    match a with
    | ⟨0, _⟩ => show win1_5.index t (0 : Fin 2) * 5000 + 1 * r.val = t.val * 5000 + r.val; omega
    | ⟨1, _⟩ => show win1_5.index t (1 : Fin 2) * 128 + 1 * q.val = q.val; omega
  rw [hemb]
  unfold nodeAt nodeG
  simp only [blk1_0, blk1_1, blk1_2, blk1_3, blk1_4]
  rfl

/-- The node decoder's result array after its region. -/
theorem node_array (c : Dev nD) : (dat1 V c).arrAt 5 cfg1.N = nodeG V c :=
  (dat1 V c).arrAt_eq_of_cover 5 (nodeG V c) (fun t _ => node_flushed V c t) cover1_5

/-! ## The edge decoder's region (pipeline 0) -/

/-- The printed index maps over the hundred points: the two gathered arrays and the result move down by one block of
    rows per point; every weight window stays at its one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem lt0 (t : Fin cfg0.N) : t.val < 100 := lt_of_lt_of_eq t.isLt (show cfg0.N = 100 from N_0)

/-- Row `r` of point `t`'s block of either gathered array is row `8000·t + r` of that array. -/
theorem blk0_0 (c : Dev nD) (t : Fin cfg0.N) (r : Fin 8000) (k : Fin 128) :
    iblk0 V c 0 t (ix2 r k) = V c main_v4 (ix2 (⟨t.val * 8000 + r.val, by have := lt0 t; omega⟩ : Fin 800000) k) := by
  obtain ⟨e0, e1, -⟩ := idx0 t
  show V c main_v4 (((cfg0.win 0).blk t).view.emb (ix2 r k)) = _
  refine congrArg _ (funext fun a => Fin.ext ?_)
  match a with
  | ⟨0, _⟩ => show win0_0.index t (0 : Fin 2) * 8000 + 1 * r.val = t.val * 8000 + r.val; omega
  | ⟨1, _⟩ => show win0_0.index t (1 : Fin 2) * 128 + 1 * k.val = k.val; omega
theorem blk0_1 (c : Dev nD) (t : Fin cfg0.N) (r : Fin 8000) (k : Fin 128) :
    iblk0 V c 1 t (ix2 r k) = V c main_v5 (ix2 (⟨t.val * 8000 + r.val, by have := lt0 t; omega⟩ : Fin 800000) k) := by
  obtain ⟨-, -, e0, e1, -⟩ := idx0 t
  show V c main_v5 (((cfg0.win 1).blk t).view.emb (ix2 r k)) = _
  refine congrArg _ (funext fun a => Fin.ext ?_)
  match a with
  | ⟨0, _⟩ => show win0_1.index t (0 : Fin 2) * 8000 + 1 * r.val = t.val * 8000 + r.val; omega
  | ⟨1, _⟩ => show win0_1.index t (1 : Fin 2) * 128 + 1 * k.val = k.val; omega
/-- The weight windows' one block is the whole array. -/
theorem blk0_2 (c : Dev nD) (t : Fin cfg0.N) (k : Fin 256) (j : Fin 256) :
    iblk0 V c 2 t (ix2 k j) = V c main_arg7 (ix2 k j) := by
  obtain ⟨-, -, -, -, e0, e1, -⟩ := idx0 t
  show V c main_arg7 (((cfg0.win 2).blk t).view.emb (ix2 k j)) = _
  refine congrArg _ (funext fun a => Fin.ext ?_)
  match a with
  | ⟨0, _⟩ => show win0_2.index t (0 : Fin 2) * 256 + 1 * k.val = k.val; omega
  | ⟨1, _⟩ => show win0_2.index t (1 : Fin 2) * 256 + 1 * j.val = j.val; omega
theorem blk0_3 (c : Dev nD) (t : Fin cfg0.N) (j : Fin 256) :
    iblk0 V c 3 t (ix2 0 j) = V c main_v6 (ix2 0 j) := by
  obtain ⟨-, -, -, -, -, -, e0, e1, -⟩ := idx0 t
  show V c main_v6 (((cfg0.win 3).blk t).view.emb (ix2 0 j)) = _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * j.val = j.val; omega
theorem blk0_4 (c : Dev nD) (t : Fin cfg0.N) (j : Fin 256) :
    iblk0 V c 4 t (ix2 j 0) = V c main_arg9 (ix2 j 0) := by
  obtain ⟨-, -, -, -, -, -, -, -, e0, e1, -⟩ := idx0 t
  show V c main_arg9 (((cfg0.win 4).blk t).view.emb (ix2 j 0)) = _
  refine congrArg _ (funext fun a => Fin.ext ?_)
  match a with
  | ⟨0, _⟩ => show win0_4.index t (0 : Fin 2) * 256 + 1 * j.val = j.val; omega
  | ⟨1, _⟩ => show win0_4.index t (1 : Fin 2) * 1 + 1 * 0 = 0; omega
theorem blk0_5 (c : Dev nD) (t : Fin cfg0.N) :
    iblk0 V c 5 t (ix2 0 0) = V c main_v7 (ix2 0 0) := by
  obtain ⟨-, -, -, -, -, -, -, -, -, -, e0, e1, -⟩ := idx0 t
  show V c main_v7 (((cfg0.win 5).blk t).view.emb (ix2 0 0)) = _
  refine congrArg _ (funext fun a => Fin.ext ?_)
  match a with
  | ⟨0, _⟩ => show win0_5.index t (0 : Fin 2) * 1 + 1 * 0 = 0; omega
  | ⟨1, _⟩ => show win0_5.index t (1 : Fin 2) * 1 + 1 * 0 = 0; omega

/-- An index of the result is in point `t`'s block iff each coordinate is in the block's range on its axis. -/
theorem mem_blk0_6 (t : Fin cfg0.N) (i : S800000x1.Idx) :
    i ∈ ((cfg0.win 6).blk t).view.set ↔ ∀ a : Fin 2, win0_6.index t a * S8000x1.size a ≤ (i a).val ∧ (i a).val < win0_6.index t a * S8000x1.size a + S8000x1.size a := by
  show i ∈ ((View.whole main_v8).slice (win0_6.rect t)).set ↔ _
  rw [View.set_slice_whole, Rect.mem_set_unit]
  exact Iff.rfl

/-- Every row of the result lies in the block of the point `row / 8000`, and every point writes back. -/
theorem cover0_6 (i : S800000x1.Idx) :
    ∃ t : Fin cfg0.N, (cfg0.win 6).flush t = true ∧ i ∈ ((cfg0.win 6).blk t).view.set := by
  have hi0 : (i 0).val < 800000 := (i 0).isLt
  have hi1 : (i 1).val < 1 := (i 1).isLt
  let t : Fin cfg0.N := ⟨(i 0).val / 8000, lt_of_lt_of_eq (by omega : (i 0).val / 8000 < 100) (show (100 : ℕ) = cfg0.N from N_0.symm)⟩
  obtain ⟨-, -, -, -, -, -, -, -, -, -, -, -, e0, e1⟩ := idx0 t
  have ht : t.val = (i 0).val / 8000 := rfl
  refine ⟨t, flush0_6 t, ?_⟩
  rw [mem_blk0_6]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 1 ≤ (i 1).val ∧ (i 1).val < win0_6.index t (1 : Fin 2) * 1 + 1; omega

/-- The edge decoder's result as one function of the arrays its region is entered with. -/
def edgeG (c : Dev nD) : S800000x1.Idx → EReal := fun i =>
  edgeAt (M := 800000) (V c main_v4) (V c main_v5) (V c main_arg7) (fun j => V c main_v6 (ix2 0 j)) (V c main_arg9)
    (V c main_v7 (ix2 0 0)) ⟨(i 0).val, (i 0).isLt⟩

/-- What point `t` writes back is block `t` of `edgeG`. -/
theorem edge_flushed (c : Dev nD) (t : Fin cfg0.N) :
    (dat0 V c).flushed 6 t = ((cfg0.win 6).blk t).view.read (Elt Ideal) (edgeG V c) := by
  show (cfg0.win 6).cut (grid0.coords t) ((dat0 V c).after 6 t) = _
  rw [after0_6]
  unfold out0_6
  rw [View.canon_unit_zero hz]
  simp only [View.ld_unit_zero (S := S8000x128) hz, View.ld_unit_zero (S := S256x256) hz, View.ld_unit_zero (S := S1x256) hz,
    View.ld_unit_zero (S := S256x1) hz, View.ld_unit_zero (S := S1x1) hz]
  funext y
  obtain ⟨r, q, rfl⟩ : ∃ (r : Fin 8000) (q : Fin 1), y = ix2 r q := ⟨y 0, y 1, eq_ix2 y⟩
  obtain rfl : q = 0 := Subsingleton.elim _ _
  refine (edge_payload_apply _ _ _ _ _ _ r).trans ?_
  obtain ⟨-, -, -, -, -, -, -, -, -, -, -, -, e0, e1⟩ := idx0 t
  show _ = edgeG V c (((cfg0.win 6).blk t).view.emb (ix2 r 0))
  have hemb : ((cfg0.win 6).blk t).view.emb (ix2 r 0) = ix2 (⟨t.val * 8000 + r.val, by have := lt0 t; omega⟩ : Fin 800000) 0 := by
    funext a; apply Fin.ext
    match a with
    | ⟨0, _⟩ => show win0_6.index t (0 : Fin 2) * 8000 + 1 * r.val = t.val * 8000 + r.val; omega
    | ⟨1, _⟩ => show win0_6.index t (1 : Fin 2) * 1 + 1 * 0 = 0; omega
  rw [hemb]
  unfold edgeAt edgeG
  simp only [blk0_0, blk0_1, blk0_2, blk0_3, blk0_4, blk0_5]
  rfl

/-- The edge decoder's result array after its region. -/
theorem edge_array (c : Dev nD) : (dat0 V c).arrAt 6 cfg0.N = edgeG V c :=
  (dat0 V c).arrAt_eq_of_cover 6 (edgeG V c) (fun t _ => edge_flushed V c t) cover0_6

end Cert.KernelIdeal.Arrays

end
-- ==== Proof.IndexFacts.lean ====
/-
  What the precondition says of the integer index input, and small facts about index arithmetic on 32-bit words.

  The index input is a [2 × 800000] array of 32-bit words; the precondition's last two conjuncts say that every
  entry, read signed, is at least 0 and below 50000 (the number of rows of the table the indices point into).
  Under that range the index arithmetic around a row lookup is trivial:

  * the NumPy-style wrap of a negative index (add 50000 where the index is negative) changes nothing;
  * the in-range test 0 ≤ w ≤ 49999, computed entry by entry and folded by "and" along a unit axis, is all ones;
  * a choice between two arrays under an all-ones mask is the first array;
  * each row of the index array, cut out as a [1 × 800000] block and re-laid as a vector, has all its entries in range,
    since each entry of it is an entry of the array.
-/
import proofs.«428258_j44014824849613_1_alg».proof.Pre_finite_inputs
import proofs.«428258_j44014824849613_1_alg».proof.Proof.Gen.Pre_finite_inputs
import Idealize.ShloMosaic.Lib.StableHlo.Predicate
import Idealize.ShloMosaic.Lib.ReduceAll
import Idealize.ShloMosaic.Lib.ValueIdx

namespace Cert.GNN

open Idealize.ShloMosaic Idealize.ShloMosaic.ValueIdx

/-! ## A choice under an all-ones mask -/

/-- A mask that is the broadcast of an all-ones array is all ones, and a lane-by-lane choice under it takes the
    first array everywhere. -/
theorem select_of_ones {α : Type} (s t : Shape) (dims : Fin s.rank → Fin t.rank) (hb : s.BroadcastsInDim t dims)
    (a b : t.Idx → α) :
    select (broadcastInDim t dims hb (fun _ : s.Idx => (1#1 : BitVec 1))) a b = a := by
  funext i
  exact select_one (a i) (b i)

/-! ## The wrap of a negative index -/

/-- Where every index is non-negative, "add 50000 where the index is negative" is the identity. -/
theorem wrap_of_nonneg (s : Shape) (hb : (⟨0, ![]⟩ : Shape).BroadcastsInDim s (![] : Fin 0 → Fin s.rank))
    (i : IVec s 32) (hi : ∀ e, 0 ≤ (i e).toInt) :
    select (cmpi .slt i (broadcastInDim s ![] hb (constantI ⟨0, ![]⟩ 32 0#32)))
      (addi i (broadcastInDim s ![] hb (constantI ⟨0, ![]⟩ 32 50000#32))) i = i := by
  funext e
  have hne : ¬ IntOp.cmpi .slt (i e) 0#32 = 1#1 := by
    rw [IntOp.cmpi_slt, show (0#32 : BitVec 32).toInt = 0 from by decide]
    exact not_lt.mpr (hi e)
  exact if_neg hne

/-! ## The in-range test -/

/-- A left fold by "and" that starts at 1 and meets only 1s ends at 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- The test 0 ≤ w ≤ 49999 of a vector of words laid as an [n × 1] column, folded by "and" along the unit axis, is all
    ones when every word is in [0, 50000). -/
theorem inrange_mask (n : ℕ) (w : IVec ⟨1, ![n]⟩ 32) (hw : ∀ e, 0 ≤ (w e).toInt ∧ (w e).toInt < 50000)
    (hb1 : (⟨1, ![n]⟩ : Shape).BroadcastsInDim ⟨2, ![n, 1]⟩ (![0] : Fin 1 → Fin (⟨2, ![n, 1]⟩ : Shape).rank))
    (hb0 : (⟨0, ![]⟩ : Shape).BroadcastsInDim ⟨2, ![n, 1]⟩ (![] : Fin 0 → Fin (⟨2, ![n, 1]⟩ : Shape).rank))
    (hbc : (⟨1, ![1]⟩ : Shape).BroadcastsInDim ⟨2, ![1, 1]⟩ (![1] : Fin 1 → Fin (⟨2, ![1, 1]⟩ : Shape).rank))
    (hbd : (⟨2, ![1, 1]⟩ : Shape).BroadcastsInDim ⟨2, ![n, 1]⟩ (![0, 1] : Fin 2 → Fin (⟨2, ![n, 1]⟩ : Shape).rank))
    (hred : (⟨2, ![n, 1]⟩ : Shape).ReducesTo [1] ⟨1, ![n]⟩)
    (hpos : 0 < (⟨0, ![]⟩ : Shape).numel) :
    Host.reduce IntOp.andi
      (andi (cmpi .sge (broadcastInDim ⟨2, ![n, 1]⟩ ![0] hb1 w) (broadcastInDim ⟨2, ![n, 1]⟩ ![] hb0 (constantI ⟨0, ![]⟩ 32 0#32)))
        (cmpi .sle (broadcastInDim ⟨2, ![n, 1]⟩ ![0] hb1 w)
          (broadcastInDim ⟨2, ![n, 1]⟩ ![0, 1] hbd (broadcastInDim ⟨2, ![1, 1]⟩ ![1] hbc (constantI ⟨1, ![1]⟩ 32 49999#32)))))
      (constantI ⟨0, ![]⟩ 1 1#1) hred hpos = fun _ => 1#1 := by
  funext j
  rw [Host.reduce_eq_foldl]
  refine foldl_andi_ones _ (fun x => ?_) _
  obtain ⟨h0, h1⟩ := hw (fun a => if h1 : (⟨1, ![n]⟩ : Shape).size a = 1 then ⟨0, by omega⟩
    else ⟨(x ((![0] : Fin 1 → Fin (⟨2, ![n, 1]⟩ : Shape).rank) a)).val, by
      rcases hb1.2 a with h2 | h2
      · exact absurd h2 h1
      · rw [h2]; exact (x _).isLt⟩)
  refine IntOp.andi_eq_one.mpr ⟨IntOp.cmpi_sge.mpr ?_, IntOp.cmpi_sle.mpr ?_⟩
  · show (0#32 : BitVec 32).toInt ≤ _
    rw [show (0#32 : BitVec 32).toInt = 0 from by decide]
    exact h0
  · show _ ≤ (49999#32 : BitVec 32).toInt
    rw [show (49999#32 : BitVec 32).toInt = 49999 from by decide]
    exact Int.lt_add_one_iff.mp h1

/-! ## A row of the index array -/

/-- Every entry of a row of the index array, cut out as a [1 × 800000] block and re-laid as a vector, is an entry of the
    array, so it is in range when every entry of the array is. -/
theorem row_in_range (ei : IVec ⟨2, ![2, 800000]⟩ 32) (h : ∀ i, 0 ≤ (ei i).toInt ∧ (ei i).toInt < 50000) (r : ℕ)
    (hs : (⟨2, ![2, 800000]⟩ : Shape).Slices (![r, 0] : Fin (⟨2, ![2, 800000]⟩ : Shape).rank → ℕ) ⟨2, ![1, 800000]⟩)
    (hc : (⟨2, ![1, 800000]⟩ : Shape).ShapeCasts ⟨1, ![800000]⟩) :
    ∀ e, 0 ≤ ((shapeCast ⟨1, ![800000]⟩ (extractStridedSlice ⟨2, ![1, 800000]⟩ ![r, 0] ei hs) hc) e).toInt
      ∧ ((shapeCast ⟨1, ![800000]⟩ (extractStridedSlice ⟨2, ![1, 800000]⟩ ![r, 0] ei hs) hc) e).toInt < 50000 :=
  fun e => h _

/-! ## The precondition, read at the index input -/

/-- The precondition's last two conjuncts: every entry of the index input is at least 0 and below 50000. -/
theorem idx_range_of_pre [Cert.Pre_finite_inputs.Facts]
    (a0 : FVec Ideal Cert.Pre_finite_inputs.S50000x128 .f32) (a1 : IVec Cert.Pre_finite_inputs.S2x800000 32)
    (a2 : FVec Ideal Cert.Pre_finite_inputs.S800000x1 .f32) (a3 : FVec Ideal Cert.Pre_finite_inputs.S129x256 .f32)
    (a4 : FVec Ideal Cert.Pre_finite_inputs.S256 .f32) (a5 : FVec Ideal Cert.Pre_finite_inputs.S256x128 .f32)
    (a6 : FVec Ideal Cert.Pre_finite_inputs.S128 .f32) (a7 : FVec Ideal Cert.Pre_finite_inputs.S256x256 .f32)
    (a8 : FVec Ideal Cert.Pre_finite_inputs.S256 .f32) (a9 : FVec Ideal Cert.Pre_finite_inputs.S256x1 .f32)
    (a10 : FVec Ideal Cert.Pre_finite_inputs.S1 .f32)
    (h : Cert.Pre_finite_inputs.fn (F := Ideal) a0 a1 a2 a3 a4 a5 a6 a7 a8 a9 a10 = fun _ => 1#1) :
    ∀ i : Cert.Pre_finite_inputs.S2x800000.Idx, 0 ≤ (a1 i).toInt ∧ (a1 i).toInt < 50000 := by
  intro i
  haveI : Subsingleton Cert.Pre_finite_inputs.S_.Idx := ⟨fun a b => funext fun d => d.elim0⟩
  -- the predicate at its one index, opened down to its last two conjuncts
  have e := congrFun h ix0
  dsimp only [Cert.Pre_finite_inputs.fn, Cert.Pre_finite_inputs.fn_part1, Cert.Pre_finite_inputs.fn_part2,
    Cert.Pre_finite_inputs.fn_part3] at e
  obtain ⟨e12, elt⟩ := IntOp.andi_eq_one.mp e
  obtain ⟨-, ege⟩ := IntOp.andi_eq_one.mp e12
  -- an "all" that holds, holds at entry i
  have hge := Host.reduce_andi_all _ _ _ _ ix0 ege i
  have hlt := Host.reduce_andi_all _ _ _ _ ix0 elt i
  have h0 : (0#32 : BitVec 32).toInt ≤ (a1 i).toInt := IntOp.cmpi_sge.mp hge
  have h1 : (a1 i).toInt < (50000#32 : BitVec 32).toInt := IntOp.cmpi_slt.mp hlt
  rw [show (0#32 : BitVec 32).toInt = 0 from by decide] at h0
  rw [show (50000#32 : BitVec 32).toInt = 50000 from by decide] at h1
  exact ⟨h0, h1⟩

end Cert.GNN
-- ==== Proof.RefValue.lean ====
/-
  The reference program's two results, read at an entry.

  Each result of the reference is a two-layer perceptron with a rectifier between the layers, applied row by row.
  Reading the program one host operation at a time, outermost first, an entry of a result is the output bias plus
  the sum over the 256 hidden units of the rectified hidden value times an output weight, and a hidden value is the
  hidden bias plus a first-layer sum. For the node result the first layer runs over the 129 columns of the mean
  aggregate; for the edge result it runs over the 256 columns of the source row followed by the destination row,
  which splits at column 128 into the two sums the specification is written with.
-/
import proofs.«428258_j44014824849613_1_alg».proof.Proof.RefRead
import proofs.«428258_j44014824849613_1_alg».proof.Proof.LibDot
import proofs.«428258_j44014824849613_1_alg».proof.Proof.Spec
import Idealize.ShloMosaic.Lib.Pipeline.Value
import Idealize.ShloMosaic.Lib.ValueIdx
import Idealize.ShloMosaic.PureOps.Ideal.Laws

noncomputable section

namespace Cert.GNN

open Idealize.ShloMosaic Idealize.ShloMosaic.ValueIdx Cert.ReferenceIdeal Cert.ReferenceIdeal.ReadP

/-! ### The node result -/

/-- Row `n`, hidden column `j` of the second layer's left operand. -/
private theorem lidx50_ix (n : Fin 50000) (q : Fin 128) (j : Fin 256) : lidx_main_v50 (ix2 n q) j = ix2 n j :=
  funext fun a => Fin.ext (by match a with | ⟨0, _⟩ => rfl | ⟨1, _⟩ => rfl)
/-- Hidden row `j`, output column `q` of the second layer's weights. -/
private theorem ridx50_ix (n : Fin 50000) (q : Fin 128) (j : Fin 256) : ridx_main_v50 (ix2 n q) j = ix2 j q :=
  funext fun a => Fin.ext (by match a with | ⟨0, _⟩ => rfl | ⟨1, _⟩ => rfl)
/-- Row `n`, input column `k` of the first layer's left operand. -/
private theorem lidx45_ix (n : Fin 50000) (j : Fin 256) (k : Fin 129) : lidx_main_v45 (ix2 n j) k = ix2 n k :=
  funext fun a => Fin.ext (by match a with | ⟨0, _⟩ => rfl | ⟨1, _⟩ => rfl)
/-- Input row `k`, hidden column `j` of the first layer's weights. -/
private theorem ridx45_ix (n : Fin 50000) (j : Fin 256) (k : Fin 129) : ridx_main_v45 (ix2 n j) k = ix2 k j :=
  funext fun a => Fin.ext (by match a with | ⟨0, _⟩ => rfl | ⟨1, _⟩ => rfl)
/-- The hidden bias, broadcast over the rows, is read at its column. -/
private theorem idx46_ix (n : Fin 50000) (j : Fin 256) : idx_main_v46 (idx_main_v47 (ix2 n j)) = ix1 j :=
  funext fun a => Fin.ext (by match a with | ⟨0, _⟩ => rfl)
/-- The output bias, broadcast over the rows, is read at its column. -/
private theorem idx51_ix (n : Fin 50000) (q : Fin 128) : idx_main_v51 (idx_main_v52 (ix2 n q)) = ix1 q :=
  funext fun a => Fin.ext (by match a with | ⟨0, _⟩ => rfl)

theorem ref_node_apply (x0 : (⟨S50000x128, .f32⟩ : BufTy).Contents (Elt Ideal)) (x1 : (⟨S2x800000, .i32⟩ : BufTy).Contents (Elt Ideal)) (x2 : (⟨S800000x1, .f32⟩ : BufTy).Contents (Elt Ideal)) (x3 : (⟨S129x256, .f32⟩ : BufTy).Contents (Elt Ideal)) (x4 : (⟨S256, .f32⟩ : BufTy).Contents (Elt Ideal)) (x5 : (⟨S256x128, .f32⟩ : BufTy).Contents (Elt Ideal)) (x6 : (⟨S128, .f32⟩ : BufTy).Contents (Elt Ideal)) (n : Fin 50000) (q : Fin 128) :
    val_main_v53 (F := Ideal) x0 x1 x2 x3 x4 x5 x6 (ix2 n q)
      = nodeAt (val_main_v44 (F := Ideal) x0 x1 x2) x3 (fun j => x4 (ix1 j)) x5 (fun q => x6 (ix1 q)) n q := by
  rw [val_main_v53_apply, val_main_v50_apply, val_main_v52_apply, val_main_v51_apply, idx51_ix]
  simp only [Ideal.addf_def]
  unfold nodeAt
  refine congrArg₂ (· + ·) ?_ rfl
  refine Finset.sum_congr rfl fun j _ => ?_
  rw [lidx50_ix, ridx50_ix, val_main_v49_apply, val_main_v48_apply, val_main_v45_apply, val_main_v47_apply,
    val_main_v46_apply, val_main_call2_v0_apply, val_main_call2_cst_apply, idx46_ix]
  simp only [Ideal.addf_def, Ideal.maximumf_def, Ideal.ofBits_def, Ideal.ofBits_zero_f32, lidx45_ix, ridx45_ix]

/-! ### The edge result -/

/-- Row `e`, hidden column `j` of the second layer's left operand. -/
private theorem lidx24_ix (e : Fin 800000) (j : Fin 256) : lidx_main_v24 (ix2 e (0 : Fin 1)) j = ix2 e j :=
  funext fun a => Fin.ext (by match a with | ⟨0, _⟩ => rfl | ⟨1, _⟩ => rfl)
/-- Hidden row `j` of the second layer's one column of weights. -/
private theorem ridx24_ix (e : Fin 800000) (j : Fin 256) : ridx_main_v24 (ix2 e (0 : Fin 1)) j = ix2 j (0 : Fin 1) :=
  funext fun a => Fin.ext (by match a with | ⟨0, _⟩ => rfl | ⟨1, _⟩ => rfl)
/-- Row `e`, input column `k` of the first layer's left operand. -/
private theorem lidx19_ix (e : Fin 800000) (j k : Fin 256) : lidx_main_v19 (ix2 e j) k = ix2 e k :=
  funext fun a => Fin.ext (by match a with | ⟨0, _⟩ => rfl | ⟨1, _⟩ => rfl)
/-- Input row `k`, hidden column `j` of the first layer's weights. -/
private theorem ridx19_ix (e : Fin 800000) (j k : Fin 256) : ridx_main_v19 (ix2 e j) k = ix2 k j :=
  funext fun a => Fin.ext (by match a with | ⟨0, _⟩ => rfl | ⟨1, _⟩ => rfl)
/-- The hidden bias, broadcast over the rows, is read at its column. -/
private theorem idx20_ix (e : Fin 800000) (j : Fin 256) : idx_main_v20 (idx_main_v21 (ix2 e j)) = ix1 j :=
  funext fun a => Fin.ext (by match a with | ⟨0, _⟩ => rfl)
/-- The output bias, broadcast over the rows, is read at its one entry. -/
private theorem idx25_ix (e : Fin 800000) : idx_main_v25 (idx_main_v26 (ix2 e (0 : Fin 1))) = ix1 (0 : Fin 1) :=
  funext fun a => Fin.ext (by match a with | ⟨0, _⟩ => rfl)

/-- The first 128 columns of the first layer's input are the source row. -/
private theorem cat_top (x0 : (⟨S50000x128, .f32⟩ : BufTy).Contents (Elt Ideal)) (x1 : (⟨S2x800000, .i32⟩ : BufTy).Contents (Elt Ideal))
    (e : Fin 800000) (k : Fin 128) :
    val_main_v18 (F := Ideal) x0 x1 (ix2 e (topRow k)) = val_main_v10 (F := Ideal) x0 x1 (ix2 e k) := by
  unfold val_main_v18
  generalize val_main_v10 (F := Ideal) x0 x1 = y0
  generalize val_main_v17 (F := Ideal) x0 x1 = y1
  exact concatenate_pair_apply_left 1 y0 y1 _ (ix2 e (topRow k)) rfl (ix2 e k)
    (fun b => by match b with | ⟨0, _⟩ => rfl | ⟨1, _⟩ => rfl)

/-- The last 128 columns of the first layer's input are the destination row. -/
private theorem cat_bot (x0 : (⟨S50000x128, .f32⟩ : BufTy).Contents (Elt Ideal)) (x1 : (⟨S2x800000, .i32⟩ : BufTy).Contents (Elt Ideal))
    (e : Fin 800000) (k : Fin 128) :
    val_main_v18 (F := Ideal) x0 x1 (ix2 e (botRow k)) = val_main_v17 (F := Ideal) x0 x1 (ix2 e k) := by
  unfold val_main_v18
  generalize val_main_v10 (F := Ideal) x0 x1 = y0
  generalize val_main_v17 (F := Ideal) x0 x1 = y1
  exact concatenate_pair_apply_right 1 y0 y1 _ (ix2 e (botRow k)) rfl rfl (ix2 e k)
    (fun b hb => by match b with | ⟨0, _⟩ => rfl | ⟨1, _⟩ => exact absurd rfl hb)
    (by show k.val + 128 = 128 + k.val; omega)

theorem ref_edge_apply (x0 : (⟨S50000x128, .f32⟩ : BufTy).Contents (Elt Ideal)) (x1 : (⟨S2x800000, .i32⟩ : BufTy).Contents (Elt Ideal)) (x7 : (⟨S256x256, .f32⟩ : BufTy).Contents (Elt Ideal)) (x8 : (⟨S256, .f32⟩ : BufTy).Contents (Elt Ideal)) (x9 : (⟨S256x1, .f32⟩ : BufTy).Contents (Elt Ideal)) (x10 : (⟨S1, .f32⟩ : BufTy).Contents (Elt Ideal)) (e : Fin 800000) :
    val_main_v27 (F := Ideal) x0 x1 x7 x8 x9 x10 (ix2 e 0)
      = edgeAt (val_main_v10 (F := Ideal) x0 x1) (val_main_v17 (F := Ideal) x0 x1) x7 (fun j => x8 (ix1 j)) x9 (x10 (ix1 0)) e := by
  rw [val_main_v27_apply, val_main_v24_apply, val_main_v26_apply, val_main_v25_apply, idx25_ix]
  simp only [Ideal.addf_def]
  unfold edgeAt
  refine congrArg₂ (· + ·) ?_ rfl
  refine Finset.sum_congr rfl fun j _ => ?_
  rw [lidx24_ix, ridx24_ix, val_main_v23_apply, val_main_v22_apply, val_main_v19_apply, val_main_v21_apply,
    val_main_v20_apply, val_main_call0_v0_apply, val_main_call0_cst_apply, idx20_ix, sum_split_256]
  simp only [Ideal.addf_def, Ideal.maximumf_def, Ideal.ofBits_def, Ideal.ofBits_zero_f32, lidx19_ix, ridx19_ix,
    cat_top, cat_bot]

end Cert.GNN

end
-- ==== Proof.Bridge.lean ====
/-
  The idealized kernel program's two results are the reference's, as functions of the launch memory.

  Under the precondition every entry of the index input lies in `[0, 50000)`. There the wrap of a negative index is
  the identity and the in-range test of the kernel's gather-with-fill holds in every row, so that gather is the plain
  gather the reference makes: the two programs gather the same source and destination rows. The per-node context is then
  the same chain of operations applied to the same arrays. Each decoder's result, entry by entry, is the same two-layer
  perceptron of those rows on both sides (`edgeAt`, `nodeAt`): on the kernel's side from what its region writes back,
  on the reference's from its stages read at an index.
-/
import proofs.«428258_j44014824849613_1_alg».proof.Proof.HostK
import proofs.«428258_j44014824849613_1_alg».proof.Proof.Arrays
import proofs.«428258_j44014824849613_1_alg».proof.Proof.IndexFacts
import proofs.«428258_j44014824849613_1_alg».proof.Proof.RefValue
import proofs.«428258_j44014824849613_1_alg».proof.Defs
import Idealize.ShloMosaic.Lib.ValueLayout

set_option maxRecDepth 16384

noncomputable section

namespace Cert.Bridge

open Cert.KernelIdeal Cert.KernelIdeal.Gen Cert.GNN
open Idealize.ShloMosaic Idealize.ShloMosaic.TcCoe Idealize.ShloMosaic.ValueIdx
open Idealize.SL Idealize.SL.Sem
open Cert.KernelIdeal.HostK Cert.KernelIdeal.Arrays
open Cert.ReferenceIdeal.ReadP

/-! ## The gathers -/

section Gathers

variable (z : FVec Ideal S50000x128 .f32) (ei : IVec S2x800000 32)

theorem row0_range (hr : ∀ i, 0 ≤ (ei i).toInt ∧ (ei i).toInt < 50000) : ∀ e, 0 ≤ (rowK0 ei e).toInt ∧ (rowK0 ei e).toInt < 50000 := row_in_range ei hr 0 _ _
theorem row1_range (hr : ∀ i, 0 ≤ (ei i).toInt ∧ (ei i).toInt < 50000) : ∀ e, 0 ≤ (rowK1 ei e).toInt ∧ (rowK1 ei e).toInt < 50000 := row_in_range ei hr 1 _ _

/-- The reference's wrapped source indices are the source row itself. -/
theorem ref_wrap0 (hr : ∀ i, 0 ≤ (ei i).toInt ∧ (ei i).toInt < 50000) : val_main_v8 (F := Ideal) ei = rowK0 ei :=
  wrap_of_nonneg _ _ (rowK0 ei) fun e => (row0_range ei hr e).1
/-- The reference's wrapped destination indices are the destination row itself. -/
theorem ref_wrap1 (hr : ∀ i, 0 ≤ (ei i).toInt ∧ (ei i).toInt < 50000) : val_main_v15 (F := Ideal) ei = rowK1 ei :=
  wrap_of_nonneg _ _ (rowK1 ei) fun e => (row1_range ei hr e).1

/-- The kernel's gather-with-fill of the source rows is the reference's gather. -/
theorem take0 (hr : ∀ i, 0 ≤ (ei i).toInt ∧ (ei i).toInt < 50000) : takeK (F := Ideal) z (rowK0 ei) = val_main_v10 (F := Ideal) z ei := by
  unfold takeK
  have hw : wrapK (rowK0 ei) = rowK0 ei := wrap_of_nonneg _ _ (rowK0 ei) fun e => (row0_range ei hr e).1
  rw [hw]
  have hm : inRangeK (rowK0 ei) = fun _ => 1#1 := inrange_mask 800000 (rowK0 ei) (row0_range ei hr) _ _ _ _ _ _
  rw [hm, select_of_ones]
  unfold val_main_v10 val_main_v9
  rw [ref_wrap0 ei hr]
  rfl
/-- The same for the destination rows. -/
theorem take1 (hr : ∀ i, 0 ≤ (ei i).toInt ∧ (ei i).toInt < 50000) : takeK (F := Ideal) z (rowK1 ei) = val_main_v17 (F := Ideal) z ei := by
  unfold takeK
  have hw : wrapK (rowK1 ei) = rowK1 ei := wrap_of_nonneg _ _ (rowK1 ei) fun e => (row1_range ei hr e).1
  rw [hw]
  have hm : inRangeK (rowK1 ei) = fun _ => 1#1 := inrange_mask 800000 (rowK1 ei) (row1_range ei hr) _ _ _ _ _ _
  rw [hm, select_of_ones]
  unfold val_main_v17 val_main_v16
  rw [ref_wrap1 ei hr]
  rfl

/-- The per-node context of the kernel's program, on the reference's gathered source rows, is the reference's. -/
theorem ctx_eq (ea : FVec Ideal S800000x1 .f32) :
    ctxK (F := Ideal) ea (val_main_v10 (F := Ideal) z ei) (rowK1 ei) = val_main_v44 (F := Ideal) z ei ea := rfl

end Gathers

/-! ## The two results -/

variable (m : (ℓ : Loc Cert.KernelIdeal.nD Cert.KernelIdeal.τ Cert.KernelIdeal.sig) → Buf (Elt Ideal) ℓ)
  (ρ : Dev Cert.KernelIdeal.nD → PrngReg)

/-- The precondition's index range, at core `c`'s index input. -/
theorem ei_range (hpre : Cert.Pre_KernelIdeal m) (c : Dev nD) :
    ∀ i, 0 ≤ ((m ((c.tc : Thread nD τ).loc main_arg1)) i).toInt ∧ ((m ((c.tc : Thread nD τ).loc main_arg1)) i).toInt < 50000 :=
  idx_range_of_pre _ _ _ _ _ _ _ _ _ _ _ (hpre c)

/-- The edge decoder's result buffer after the run is the reference's result stage of the launch memory. -/
theorem kernel_edge (hpre : Cert.Pre_KernelIdeal m) (c : Dev nD) :
    W9 m ρ c (Proc.devRef .tc main_v8)
      = val_main_v27 (F := Ideal) (m ((c.tc : Thread nD τ).loc main_arg0)) (m ((c.tc : Thread nD τ).loc main_arg1))
          (m ((c.tc : Thread nD τ).loc main_arg7)) (m ((c.tc : Thread nD τ).loc main_arg8))
          (m ((c.tc : Thread nD τ).loc main_arg9)) (m ((c.tc : Thread nD τ).loc main_arg10)) := by
  have hr := ei_range m hpre c
  rw [W9_v8, edge_array]
  funext i
  obtain ⟨e, q, rfl⟩ : ∃ (e : Fin 800000) (q : Fin 1), i = ix2 e q := ⟨i 0, i 1, eq_ix2 i⟩
  obtain rfl : q = 0 := Subsingleton.elim _ _
  rw [ref_edge_apply]
  show edgeAt (W4 m ρ c (Proc.devRef .tc main_v4)) (W4 m ρ c (Proc.devRef .tc main_v5)) (W4 m ρ c (Proc.devRef .tc main_arg7))
      (fun j => W4 m ρ c (Proc.devRef .tc main_v6) (ix2 0 j)) (W4 m ρ c (Proc.devRef .tc main_arg9))
      (W4 m ρ c (Proc.devRef .tc main_v7) (ix2 0 0)) e = _
  rw [W4_v4, W4_v5, W4_arg7, W4_arg9, W4_v6, W4_v7, take0 _ _ hr, take1 _ _ hr]
  simp only [shapeCast_a_1a_apply]

/-- The node decoder's result buffer after the run is the reference's result stage of the launch memory. -/
theorem kernel_node (hpre : Cert.Pre_KernelIdeal m) (c : Dev nD) :
    W9 m ρ c (Proc.devRef .tc main_v28)
      = val_main_v53 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) := by
  have hr := ei_range m hpre c
  rw [W9_v28, node_array]
  funext i
  obtain ⟨n, q, rfl⟩ : ∃ (n : Fin 50000) (q : Fin 128), i = ix2 n q := ⟨i 0, i 1, eq_ix2 i⟩
  rw [ref_node_apply]
  show nodeAt (W8 m ρ c (Proc.devRef .tc main_v25)) (W8 m ρ c (Proc.devRef .tc main_arg3))
      (fun j => W8 m ρ c (Proc.devRef .tc main_v26) (ix2 0 j)) (W8 m ρ c (Proc.devRef .tc main_arg5))
      (fun q => W8 m ρ c (Proc.devRef .tc main_v27) (ix2 0 q)) n q = _
  rw [W8_v25, W8_arg3, W8_arg5, W8_v26, W8_v27, W5_v4, W5_v3, W5_arg2, W5_arg3, W5_arg4, W5_arg5, W5_arg6,
    W4_v4, W4_v3, W4_arg2, W4_arg3, W4_arg4, W4_arg5, W4_arg6, take0 _ _ hr, ctx_eq]
  simp only [shapeCast_a_1a_apply]

end Cert.Bridge

end
-- ==== Proof.lean ====
/-
  The graph decoder: a Pallas kernel program of two pipelined regions against its plain reference, equal over the
  extended reals under the precondition that every float input is finite and every entry of the edge index lies in
  `[0, 50000)`, the range of the node array it indexes.

  Both programs gather, for each of the 800000 edges, the rows of `z` at the edge's source and destination node. The edge
  output is a two-layer perceptron of the two rows side by side: the reference contracts the joined 256 columns with the
  first weight at once, the kernel contracts each 128-column half with the matching half of the weight and adds, which
  is the same sum split at column 128. The node output is a two-layer perceptron of a per-node context, the mean over a
  node's incoming edges of the edge attribute joined to the source row; both programs form that context by the same host
  operations, and the kernel runs the perceptron block of rows by block of rows. At the ideal values a change of float
  format is the identity and a product into a zero accumulator is a plain sum, so nothing distinguishes the two sides
  but the order of additions, and addition on the extended reals is commutative and associative: finiteness of the
  inputs is never used. The index range is: outside it the kernel's gather fills a row with a not-a-number pattern where the
  reference's gather clamps, and the two results differ.

  The three frames are the generated ones (the reference's is its run with the results dropped). The ideal pass rewrote
  nothing, so the idealization claim is trivial. For the value claim the kernel program's run is taken with its two
  result buffers named (`GenV.run_values`), each result buffer is shown to hold the reference's own result stage of the
  launch memory (`Bridge.kernel_node`, `Bridge.kernel_edge`), and the reference's run ends at those stages.
-/
import proofs.«428258_j44014824849613_1_alg».proof.Defs
import proofs.«428258_j44014824849613_1_alg».proof.Proof.Gen.Kernel
import proofs.«428258_j44014824849613_1_alg».proof.Proof.Gen.Kernel.Frame
import proofs.«428258_j44014824849613_1_alg».proof.Proof.Gen.KernelIdeal
import proofs.«428258_j44014824849613_1_alg».proof.Proof.Gen.KernelIdeal.Frame
import proofs.«428258_j44014824849613_1_alg».proof.Proof.Gen.ReferenceIdeal
import proofs.«428258_j44014824849613_1_alg».proof.Proof.Gen.Pre_finite_inputs
import proofs.«428258_j44014824849613_1_alg».proof.Proof.RefRun
import proofs.«428258_j44014824849613_1_alg».proof.Proof.RefRead
import proofs.«428258_j44014824849613_1_alg».proof.Proof.ValueRun
import proofs.«428258_j44014824849613_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Run from memories that agree on the arguments, the two programs end with both results equal: each result of the
    kernel program is the reference's result stage of the kernel program's own arguments, and the reference's run ends at
    that stage of its arguments, which are the same arrays. -/
theorem algebraic : Cert.algebraic_KernelIdeal_ReferenceIdeal := by
  intro m ρ m' ρ' hpre hagree
  refine ⟨_, _, (θ_run Cert.KernelIdeal.defs _ _).mono (fun r h c =>
      ⟨(h c).1.trans (Cert.Bridge.kernel_node m ρ hpre c), (h c).2.1.trans (Cert.Bridge.kernel_edge m ρ hpre c), (h c).2.2⟩)
      (Cert.KernelIdeal.GenV.run_values m ρ), ?_⟩
  refine (θ_run Cert.ReferenceIdeal.defs _ _).mono (fun r h c => ?_) (Cert.ReferenceIdeal.ValueP.run (F := Ideal) m' ρ')
  obtain ⟨a0, a1, a2, a3, a4, a5, a6, a7, a8, a9, a10⟩ := hagree c
  refine ⟨(h c).1.trans ((Cert.ReferenceIdeal.ReadP.val_main_v53_eq _ _ _ _ _ _ _).trans ?_),
    (h c).2.1.trans ((Cert.ReferenceIdeal.ReadP.val_main_v27_eq _ _ _ _ _ _).trans ?_), (h c).2.2⟩
  · rw [a0, a1, a2, a3, a4, a5, a6]
  · rw [a0, a1, a7, a8, a9, a10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
